-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_arg5 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 4294867296#32
  let main_v24 : IVec S2x1600000 32 := broadcastInDim S2x1600000 ![] bcast_S_S2x1600000 main_c_8
  let main_v25 : IVec S2x1600000 1 := cmpi .sge main_arg1 main_v24
  let main_c_9 : IVec S_ 32 := constantI S_ 32 100000#32
  let main_v26 : IVec S2x1600000 32 := broadcastInDim S2x1600000 ![] bcast_S_S2x1600000 main_c_9
  let main_v27 : IVec S2x1600000 1 := cmpi .slt main_arg1 main_v26
  let main_v28 : IVec S2x1600000 1 := andi main_v25 main_v27
  let main_c_10 : IVec S_ 1 := constantI S_ 1 1#1
  let main_v29 : IVec S_ 1 := (fun x v => Host.reduce IntOp.andi x v reducesTo_S2x1600000_S_d0_1 h_S_) main_v28 main_c_10
  let main_v30 : IVec S_ 1 := andi main_v23 main_v29
  main_v30

def fn {F : FTy → Type} [FloatOps F] (main_arg0 : FVec F S100000x128 .f32) (main_arg1 : IVec S2x1600000 32) (main_arg2 : FVec F S128x256 .f32) (main_arg3 : FVec F S128 .f32) (main_arg4 : FVec F S1x128 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg1 main_arg5 main_v13 main_v16
-- ==== Kernel.lean ====
abbrev S100000x128 : Shape := ⟨2, ![100000, 128]⟩
abbrev S2x1600000 : Shape := ⟨2, ![2, 1600000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S128x128 : Shape := ⟨2, ![128, 128]⟩
abbrev S10000x128 : Shape := ⟨2, ![10000, 128]⟩
abbrev S_ : Shape := ⟨0, ![]⟩
abbrev S1605632 : Shape := ⟨1, ![1605632]⟩
abbrev S1605632x1 : Shape := ⟨2, ![1605632, 1]⟩
abbrev S1x1 : Shape := ⟨2, ![1, 1]⟩
abbrev S1605632x128 : Shape := ⟨2, ![1605632, 128]⟩
abbrev S12544x128x128 : Shape := ⟨3, ![12544, 128, 128]⟩
abbrev S1x1x128 : Shape := ⟨3, ![1, 1, 128]⟩
abbrev S12544x128 : Shape := ⟨2, ![12544, 128]⟩
abbrev S256x128x128 : Shape := ⟨3, ![256, 128, 128]⟩
abbrev S256x128 : Shape := ⟨2, ![256, 128]⟩

abbrev nBuf : Space → Nat
  | .hbm => 78
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .bf16⟩
  | .hbm, ⟨14, _⟩ => ⟨S128x128, .f32⟩
  | .hbm, ⟨15, _⟩ => ⟨S128x128, .bf16⟩
  | .hbm, ⟨16, _⟩ => ⟨S100000x128, .f32⟩
  | .hbm, ⟨17, _⟩ => ⟨S100000x128, .f32⟩
  | .hbm, ⟨18, _⟩ => ⟨S_, .i32⟩
  | .hbm, ⟨19, _⟩ => ⟨S_, .i32⟩
  | .hbm, ⟨20, _⟩ => ⟨S1605632, .i32⟩
  | .hbm, ⟨21, _⟩ => ⟨S_, .i32⟩
  | .hbm, ⟨22, _⟩ => ⟨S_, .i32⟩
  | .hbm, ⟨23, _⟩ => ⟨S1605632, .i32⟩
  | .hbm, ⟨24, _⟩ => ⟨S_, .i32⟩
  | .hbm, ⟨25, _⟩ => ⟨S1605632, .i32⟩
  | .hbm, ⟨26, _⟩ => ⟨S1605632, .i1⟩
  | .hbm, ⟨27, _⟩ => ⟨S_, .i32⟩
  | .hbm, ⟨28, _⟩ => ⟨S1605632, .i32⟩
  | .hbm, ⟨29, _⟩ => ⟨S1605632, .i32⟩
  | .hbm, ⟨30, _⟩ => ⟨S1605632, .i32⟩
  | .hbm, ⟨31, _⟩ => ⟨S1605632x1, .i32⟩
  | .hbm, ⟨32, _⟩ => ⟨S1, .i32⟩
  | .hbm, ⟨33, _⟩ => ⟨S_, .i32⟩
  | .hbm, ⟨34, _⟩ => ⟨S1605632x1, .i32⟩
  | .hbm, ⟨35, _⟩ => ⟨S1605632x1, .i1⟩
  | .hbm, ⟨36, _⟩ => ⟨S1x1, .i32⟩
  | .hbm, ⟨37, _⟩ => ⟨S1605632x1, .i32⟩
  | .hbm, ⟨38, _⟩ => ⟨S1605632x1, .i1⟩
  | .hbm, ⟨39, _⟩ => ⟨S1605632x1, .i1⟩
  | .hbm, ⟨40, _⟩ => ⟨S_, .i1⟩
  | .hbm, ⟨41, _⟩ => ⟨S1605632, .i1⟩
  | .hbm, ⟨42, _⟩ => ⟨S1605632x128, .f32⟩
  | .hbm, ⟨43, _⟩ => ⟨S1605632x128, .i1⟩
  | .hbm, ⟨44, _⟩ => ⟨S_, .f32⟩
  | .hbm, ⟨45, _⟩ => ⟨S1605632x128, .f32⟩
  | .hbm, ⟨46, _⟩ => ⟨S1605632x128, .f32⟩
  | .hbm, ⟨47, _⟩ => ⟨S_, .i32⟩
  | .hbm, ⟨48, _⟩ => ⟨S1605632, .i32⟩
  | .hbm, ⟨49, _⟩ => ⟨S1605632, .i1⟩
  | .hbm, ⟨50, _⟩ => ⟨S_, .i32⟩
  | .hbm, ⟨51, _⟩ => ⟨S1605632, .i32⟩
  | .hbm, ⟨52, _⟩ => ⟨S1605632, .i32⟩
  | .hbm, ⟨53, _⟩ => ⟨S1605632, .i32⟩
  | .hbm, ⟨54, _⟩ => ⟨S1605632x1, .i32⟩
  | .hbm, ⟨55, _⟩ => ⟨S1, .i32⟩
  | .hbm, ⟨56, _⟩ => ⟨S_, .i32⟩
  | .hbm, ⟨57, _⟩ => ⟨S1605632x1, .i32⟩
  | .hbm, ⟨58, _⟩ => ⟨S1605632x1, .i1⟩
  | .hbm, ⟨59, _⟩ => ⟨S1x1, .i32⟩
  | .hbm, ⟨60, _⟩ => ⟨S1605632x1, .i32⟩
  | .hbm, ⟨61, _⟩ => ⟨S1605632x1, .i1⟩
  | .hbm, ⟨62, _⟩ => ⟨S1605632x1, .i1⟩
  | .hbm, ⟨63, _⟩ => ⟨S_, .i1⟩
  | .hbm, ⟨64, _⟩ => ⟨S1605632, .i1⟩
  | .hbm, ⟨65, _⟩ => ⟨S1605632x128, .f32⟩
  | .hbm, ⟨66, _⟩ => ⟨S1605632x128, .i1⟩
  | .hbm, ⟨67, _⟩ => ⟨S_, .f32⟩
  | .hbm, ⟨68, _⟩ => ⟨S1605632x128, .f32⟩
  | .hbm, ⟨69, _⟩ => ⟨S1605632x128, .f32⟩
  | .hbm, ⟨70, _⟩ => ⟨S1605632x128, .f32⟩
  | .hbm, ⟨71, _⟩ => ⟨S12544x128x128, .f32⟩
  | .hbm, ⟨72, _⟩ => ⟨S1x1x128, .f32⟩
  | .hbm, ⟨73, _⟩ => ⟨S1x1x128, .f32⟩
  | .hbm, ⟨74, _⟩ => ⟨S1x1, .f32⟩
  | .hbm, ⟨75, _⟩ => ⟨S12544x128, .f32⟩
  | .hbm, ⟨76, _⟩ => ⟨S1605632, .f32⟩
  | .hbm, ⟨77, _⟩ => ⟨S1600000, .f32⟩
  | .local _ .vmem, ⟨0, _⟩ => ⟨S10000x128, .f32⟩
  | .local _ .vmem, ⟨1, _⟩ => ⟨S10000x128, .f32⟩
  | .local _ .vmem, ⟨2, _⟩ => ⟨S128x128, .bf16⟩
  | .local _ .vmem, ⟨3, _⟩ => ⟨S128x128, .bf16⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S256x128x128, .f32⟩
  | .local _ .vmem, ⟨9, _⟩ => ⟨S256x128x128, .f32⟩
  | .local _ .vmem, ⟨10, _⟩ => ⟨S1x1x128, .f32⟩
  | .local _ .vmem, ⟨11, _⟩ => ⟨S1x1x128, .f32⟩
  | .local _ .vmem, ⟨12, _⟩ => ⟨S1x1, .f32⟩
  | .local _ .vmem, ⟨13, _⟩ => ⟨S256x128, .f32⟩
  | .local _ .vmem, ⟨14, _⟩ => ⟨S256x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_c_0 : Ref sig .tc := ⟨.hbm, 21, rfl⟩
abbrev main_call1_v0 : Ref sig .tc := ⟨.hbm, 22, rfl⟩
abbrev main_v12 : Ref sig .tc := ⟨.hbm, 23, rfl⟩
abbrev main_call2_c : Ref sig .tc := ⟨.hbm, 24, rfl⟩
abbrev main_call2_v0 : Ref sig .tc := ⟨.hbm, 25, rfl⟩
abbrev main_call2_v1 : Ref sig .tc := ⟨.hbm, 26, rfl⟩
abbrev main_call2_c_0 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_c_1 : Ref sig .tc := ⟨.hbm, 32, rfl⟩
abbrev main_call2_c_2 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_3 : Ref sig .tc := ⟨.hbm, 40, rfl⟩
abbrev main_call2_v12 : Ref sig .tc := ⟨.hbm, 41, rfl⟩
abbrev main_call2_v13 : Ref sig .tc := ⟨.hbm, 42, rfl⟩
abbrev main_call2_v14 : Ref sig .tc := ⟨.hbm, 43, rfl⟩
abbrev main_call2_cst : Ref sig .tc := ⟨.hbm, 44, rfl⟩
abbrev main_call2_v15 : Ref sig .tc := ⟨.hbm, 45, rfl⟩
abbrev main_v13 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_c_1 : Ref sig .tc := ⟨.hbm, 55, rfl⟩
abbrev main_call3_c_2 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_c_3 : Ref sig .tc := ⟨.hbm, 63, rfl⟩
abbrev main_call3_v12 : Ref sig .tc := ⟨.hbm, 64, rfl⟩
abbrev main_call3_v13 : Ref sig .tc := ⟨.hbm, 65, rfl⟩
abbrev main_call3_v14 : Ref sig .tc := ⟨.hbm, 66, rfl⟩
abbrev main_call3_cst : Ref sig .tc := ⟨.hbm, 67, rfl⟩
abbrev main_call3_v15 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![49], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S128x256_S128x128_0_0 : S128x256.Slices ![0, 0] S128x128
  slices_S128x256_S128x128_0_128 : S128x256.Slices ![0, 128] S128x128
  transposes_S128x128_S128x128_1_0 : S128x128.Transposes [1, 0] S128x128
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  pads_S1600000_S1605632_056320 : S1600000.Pads (![0] : Fin 1 → Nat) ![5632] ![0] S1605632
  h_S_ : 0 < S_.numel
  bcast_S_S1605632 : S_.BroadcastsInDim S1605632 (![] : Fin 0 → Fin S1605632.rank)
  bcast_S1605632_S1605632x1_0 : S1605632.BroadcastsInDim S1605632x1 (![0] : Fin 1 → Fin S1605632x1.rank)
  bcast_S_S1605632x1 : S_.BroadcastsInDim S1605632x1 (![] : Fin 0 → Fin S1605632x1.rank)
  bcast_S1_S1x1_1 : S1.BroadcastsInDim S1x1 (![1] : Fin 1 → Fin S1x1.rank)
  bcast_S1x1_S1605632x1_0_1 : S1x1.BroadcastsInDim S1605632x1 (![0, 1] : Fin 2 → Fin S1605632x1.rank)
  reducesTo_S1605632x1_S1605632_d1 : S1605632x1.ReducesTo [1] S1605632
  bcast_S1605632_S1605632x128_0 : S1605632.BroadcastsInDim S1605632x128 (![0] : Fin 1 → Fin S1605632x128.rank)
  bcast_S_S1605632x128 : S_.BroadcastsInDim S1605632x128 (![] : Fin 0 → Fin S1605632x128.rank)
  shapeCasts_S1605632x128_S12544x128x128 : S1605632x128.ShapeCasts S12544x128x128
  shapeCasts_S128_S1x1x128 : S128.ShapeCasts S1x1x128
  shapeCasts_S1x128_S1x1x128 : S1x128.ShapeCasts S1x1x128
  shapeCasts_S1_S1x1 : S1.ShapeCasts S1x1
  inb_S256x128x128_S256x128x128_0_0_0 : ∀ a, (![0, 0, 0] : Fin 3 → Nat) a + S256x128x128.size a ≤ S256x128x128.size a
  h_S256x128x128 : 0 < S256x128x128.numel
  shapeCasts_S256x128x128_S256x128x128 : S256x128x128.ShapeCasts S256x128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  broadcasts_S1x1x128_S256x128x128 : S1x1x128.Broadcasts S256x128x128
  reduces_S256x128x128_S256x128 : S256x128x128.Reduces [2] S256x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x128_S256x128_0_0 : ∀ a, (![0, 0] : Fin 2 → Nat) a + S256x128.size a ≤ S256x128.size a
  h_S256x128 : 0 < S256x128.numel
  shapeCasts_S12544x128_S1605632 : S12544x128.ShapeCasts S1605632
  slices_S1605632_S1600000_0 : S1605632.Slices ![0] S1600000
  dot_S10000x128_S128x128_S10000x128_1_0_0_1_n_n_wf : DotDims.WF S10000x128 S128x128 S10000x128 [1] [0] [0] [1] [] []
  gather_S100000x128_S1605632x1_S1605632x128_1_0_n_n_0_1_1128_wf : GatherDims.WF S100000x128 S1605632x1 S1605632x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128x128.size a ≤ S12544x128x128.size a
  hwx1_0 : ∀ i : grid1.Coords, EltTy.bits .f32 = 32 ∨ (Rect.block (s := S12544x128x128) S256x128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S1x1x128.size a
  hwx1_1 : ∀ i : grid1.Coords, EltTy.bits .f32 = 32 ∨ (Rect.block (s := S1x1x128) S1x1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S1x1x128.size a
  hwx1_2 : ∀ i : grid1.Coords, EltTy.bits .f32 = 32 ∨ (Rect.block (s := S1x1x128) S1x1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S12544x128.size a
  hwx1_4 : ∀ i : grid1.Coords, EltTy.bits .f32 = 32 ∨ (Rect.block (s := S12544x128) S256x128.size (cc1_transform_4 i) (hinb1_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1605632x1_S1605632x128_1_0_n_n_0_1_1128 : GatherDims S100000x128 S1605632x1 S1605632x128 where
  offsetDims := [1]
  collapsedSliceDims := [0]
  operandBatchingDims := []
  startIndicesBatchingDims := []
  startIndexMap := [0]
  indexVectorDim := 1
  sliceSizes := ![1, 128]
  wf := gather_S100000x128_S1605632x1_S1605632x128_1_0_n_n_0_1_1128_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S256x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S1x1 : Shape := ⟨2, ![1, 1]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S128x128, .f32⟩
  | .hbm, ⟨11, _⟩ => ⟨S128x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S1600000x128, .f32⟩
  | .hbm, ⟨32, _⟩ => ⟨S1600000x128, .f32⟩
  | .hbm, ⟨33, _⟩ => ⟨S1x128, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S1600000x128, .f32⟩
  | .hbm, ⟨38, _⟩ => ⟨S1600000x128, .i1⟩
  | .hbm, ⟨39, _⟩ => ⟨S_, .f32⟩
  | .hbm, ⟨40, _⟩ => ⟨S1600000x128, .f32⟩
  | .hbm, ⟨41, _⟩ => ⟨S1600000x128, .f32⟩
  | .hbm, ⟨42, _⟩ => ⟨S1600000x128, .f32⟩
  | .hbm, ⟨43, _⟩ => ⟨S1600000x1, .f32⟩
  | .hbm, ⟨44, _⟩ => ⟨S1x1, .f32⟩
  | .hbm, ⟨45, _⟩ => ⟨S1600000x1, .f32⟩
  | .hbm, ⟨46, _⟩ => ⟨S1600000x1, .f32⟩
  | .hbm, ⟨47, _⟩ => ⟨S1600000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S128x256_S128x128_0_0 : S128x256.Slices ![0, 0] S128x128
  slices_S128x256_S128x128_0_128 : S128x256.Slices ![0, 128] S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  gather_S100000x128_S1600000x1_S1600000x128_1_0_n_n_0_1_1128_wf : GatherDims.WF S100000x128 S1600000x1 S1600000x128 [1] [0] [] [0] [] 1 ![1, 128]
  dot_S1600000x128_S128x128_S1600000x128_1_1_0_0_n_n_wf : DotDims.WF S1600000x128 S128x128 S1600000x128 [1] [1] [0] [0] [] []
  dot_S1600000x128_S1x128_S1600000x1_1_1_0_0_n_n_wf : DotDims.WF S1600000x128 S1x128 S1600000x1 [1] [1] [0] [0] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x128_S128x128_S1600000x128_1_1_0_0_n_n : DotDims S1600000x128 S128x128 S1600000x128 where
  lhsContracting := [1]
  rhsContracting := [1]
  lhsNonContracting := [0]
  rhsNonContracting := [0]
  lhsBatch := []
  rhsBatch := []
  wf := dot_S1600000x128_S128x128_S1600000x128_1_1_0_0_n_n_wf
def dot_S1600000x128_S1x128_S1600000x1_1_1_0_0_n_n : DotDims S1600000x128 S1x128 S1600000x1 where
  lhsContracting := [1]
  rhsContracting := [1]
  lhsNonContracting := [0]
  rhsNonContracting := [0]
  lhsBatch := []
  rhsBatch := []
  wf := dot_S1600000x128_S1x128_S1600000x1_1_1_0_0_n_n_wf

class Facts : Prop extends Facts₀ where

variable [Facts]
-- ==== Proof.Spec.lean ====
/-
  The function both programs compute: the score of every candidate edge of a graph from its node embeddings.

  An edge `e` names two nodes by the integers `p[0, e]` and `p[1, e]`; an integer addresses a row of the
  100000-row embedding table `z` the way array indexing does, a negative one counting from the end (`wrap`), and
  the start so obtained is read signed and clamped into the table (`row`). The two embeddings, laid side by side,
  go through a first affine layer `W1, b1` with 128 outputs — the left half of `W1`'s 256 columns meets the first
  node's embedding, the right half the second's —, a leaky rectifier, and a second affine layer `W2, b2` with one
  output:

      score e = (∑ h, leaky ((∑ k, z[row p[0,e], k] · W1[h, k]) + (∑ k, z[row p[1,e], k] · W1[h, 128 + k]) + b1[h]) · W2[0, h]) + b2[0]

  over the extended reals. Nothing here depends on a program.
-/
import Idealize.ShloMosaic.PureOps.Ideal
import Idealize.ShloMosaic.Lib.ValueIdx

noncomputable section

namespace Cert.EdgeScore

open Idealize.ShloMosaic Idealize.ShloMosaic.ValueIdx

/-- The embedding table: 100000 nodes, 128 features each. -/
abbrev Nodes : Shape := ⟨2, ![100000, 128]⟩
/-- The two endpoint indices of each of the 1600000 edges. -/
abbrev Pairs : Shape := ⟨2, ![2, 1600000]⟩
abbrev FirstW : Shape := ⟨2, ![128, 256]⟩
abbrev FirstB : Shape := ⟨1, ![128]⟩
abbrev SecondW : Shape := ⟨2, ![1, 128]⟩
abbrev SecondB : Shape := ⟨1, ![1]⟩
abbrev Edges : Shape := ⟨1, ![1600000]⟩

/-- An endpoint's integer as array indexing reads it: a negative one counts from the end of the 100000 rows. -/
def wrap (v : BitVec 32) : BitVec 32 := Scalar.select (IntOp.cmpi .slt v 0#32) (IntOp.addi v 100000#32) v

/-- The row of the table that integer reads: the wrapped integer, signed, clamped into `[0, 99999]`. -/
def row (v : BitVec 32) : Fin 100000 := ⟨min (wrap v).toInt.toNat 99999, by omega⟩

/-- The leaky rectifier, its slope the f32 word both programs carry. -/
def leaky (x : EReal) : EReal :=
  Scalar.select (FloatOps.cmpf (F := Ideal) (φ := .f32) .oge x (Ideal.ofBits .f32 0x00000000#32)) x (Ideal.ofBits .f32 0x3C23D70A#32 * x)

/-- A column of the left half of the first layer's weights. -/
abbrev colL (k : Fin 128) : Fin 256 := ⟨k.val, by omega⟩
/-- A column of the right half. -/
abbrev colR (k : Fin 128) : Fin 256 := ⟨128 + k.val, by omega⟩

/-- The first layer's output for edge `e` at unit `h`, before the rectifier. -/
def hidden (z : FVec Ideal Nodes .f32) (p : IVec Pairs 32) (W1 : FVec Ideal FirstW .f32) (b1 : FVec Ideal FirstB .f32)
    (e : Fin 1600000) (h : Fin 128) : EReal :=
  ((∑ k : Fin 128, z (ix2 (row (p (ix2 (0 : Fin 2) e))) k) * W1 (ix2 h (colL k)))
    + (∑ k : Fin 128, z (ix2 (row (p (ix2 (1 : Fin 2) e))) k) * W1 (ix2 h (colR k)))) + b1 (ix1 h)

/-- The score of every edge. -/
def score (z : FVec Ideal Nodes .f32) (p : IVec Pairs 32) (W1 : FVec Ideal FirstW .f32) (b1 : FVec Ideal FirstB .f32)
    (W2 : FVec Ideal SecondW .f32) (b2 : FVec Ideal SecondB .f32) : FVec Ideal Edges .f32 := fun i =>
  (∑ h : Fin 128, leaky (hidden z p W1 b1 ⟨(i 0).val, (i 0).isLt⟩ h) * W2 (ix2 (0 : Fin 1) h)) + b2 (ix1 (0 : Fin 1))

end Cert.EdgeScore

end
-- ==== Proof.LibGatherRows.lean ====
/-
  A gather of whole rows, read at an index.

  What `x[idx]` of a table `x : [N, C]` at a vector of row numbers `idx : [R]` lowers to: a `stablehlo.gather` with
  offset_dims `[1]`, collapsed_slice_dims `[0]`, start_index_map `[0]`, slice_sizes `[1, C]` and index_vector_dim 1
  over the row numbers as `[R, 1]`. Result element `(r, q)` is `x` at row `idx[r, 0]`, that start read as a signed
  integer and clamped into `[0, N − 1]`, and column `q`.
-/
import Idealize.ShloMosaic.PureOps
import Idealize.ShloMosaic.Lib.ValueIdx

noncomputable section

namespace Cert.EdgeScore.GatherRows

open Idealize.ShloMosaic Idealize.ShloMosaic.ValueIdx

variable {α : Type}

/-- Those dimension numbers for a table `[N, C]`, start indices `[R, 1]` and a result `[R, C]`. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, q)`: the table at the row `idx[r, 0]` names — read signed, clamped into `[0, N − 1]` — and
    column `q`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowsDims N C R wf) x idx (ix2 r q)
      = x (ix2 ⟨min (idx (ix2 r (0 : Fin 1))).toInt.toNat (N - 1), by omega⟩ q) := by
  unfold Host.gather
  congr 1
  funext a
  refine Fin.ext ?_
  match a with
  | ⟨0, _⟩ =>
    -- the collapsed axis: the clamped start, nothing from the batch or the offset
    show (rowsDims N C R wf).start (ix2 r q) idx 0 + (rowsDims N C R wf).batchCoord (ix2 r q) 0
      + (rowsDims N C R wf).offCoord (ix2 r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r q) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the kept axis: start 0 (it is not in the start index map), no batch, the result's column as the offset
    show (rowsDims N C R wf).start (ix2 r q) idx 1 + (rowsDims N C R wf).batchCoord (ix2 r q) 1
      + (rowsDims N C R wf).offCoord (ix2 r q) 1 = q.val
    have hk : (1 : Fin 2) ∈ (rowsDims N C R wf).sKept :=
      (GatherDims.mem_sKept _ _).mpr
        ⟨fun h => absurd (List.mem_singleton.mp h) (show ¬((1 : Fin 2) = 0) by decide), List.not_mem_nil⟩
    rw [GatherDims.batchCoord_eq_zero _ _ _ List.not_mem_nil]
    unfold GatherDims.start GatherDims.offCoord
    rw [dif_neg (show (1 : Fin 2) ∉ (rowsDims N C R wf).startIndexMap from
      fun h => absurd (List.mem_singleton.mp h) (show ¬((1 : Fin 2) = 0) by decide)), dif_pos hk]
    simp only [Nat.add_zero, Nat.zero_add]
    rfl

end Cert.EdgeScore.GatherRows

end
-- ==== Proof.TakeRows.lean ====
/-
  Reading rows of a per-node table by the edges' endpoint integers, as the kernel's program does it between its two
  regions: the 1600000 integers padded with zeros to 1605632, each wrapped like an array index, the table's rows
  gathered at the wrapped starts, and a row whose wrapped start falls outside `[0, 99999]` replaced by a fill word.
  Where the integer lies in `[-100000, 100000)` the wrapped start is inside the table, nothing is replaced, and the
  result is the table's row `EdgeScore.row` of that integer.
-/
import proofs.«427170_j10007273800198_3_alg».proof.KernelIdeal
import proofs.«427170_j10007273800198_3_alg».proof.Proof.Spec
import proofs.«427170_j10007273800198_3_alg».proof.Proof.LibGatherRows
import Idealize.ShloMosaic.Lib.Pipeline.Value
import Idealize.ShloMosaic.Lib.ValueIdx
import Idealize.ShloMosaic.Lib.StableHlo.Predicate
import Idealize.ShloMosaic.Lib.KernelVsHost

noncomputable section

namespace Cert.KernelIdeal.TakeRows

open Cert.KernelIdeal Idealize.ShloMosaic Idealize.ShloMosaic.ValueIdx

variable {F : FTy → Type} [FloatOps F] [Facts]
open Facts₀ Facts

/-- The endpoint integers of the 1600000 edges, followed by 5632 zeros. -/
def padded (r : IVec S1600000 32) : IVec S1605632 32 :=
  pad S1605632 ![0] ![5632] ![0] r (id (constantI S_ 32 0#32)) pads_S1600000_S1605632_056320 h_S_

/-- Each integer as array indexing reads it: a negative one has 100000 added. -/
def wrapped (ids : IVec S1605632 32) : IVec S1605632 32 :=
  select (cmpi .slt ids (broadcastInDim S1605632 ![] bcast_S_S1605632 (constantI S_ 32 0#32)))
    (addi ids (broadcastInDim S1605632 ![] bcast_S_S1605632 (constantI S_ 32 100000#32))) ids

/-- The wrapped integers as the gather's start indices, one per row. -/
def starts (ids : IVec S1605632 32) : IVec S1605632x1 32 :=
  broadcastInDim S1605632x1 ![0] bcast_S1605632_S1605632x1_0 (wrapped ids)

/-- Whether a start lies inside the table: `0 ≤ start ≤ 99999`. -/
def inTable (ids : IVec S1605632 32) : IVec S1605632 1 :=
  Host.reduce IntOp.andi
    (andi (cmpi .sge (starts ids) (broadcastInDim S1605632x1 ![] bcast_S_S1605632x1 (constantI S_ 32 0#32)))
      (cmpi .sle (starts ids) (broadcastInDim S1605632x1 ![0, 1] bcast_S1x1_S1605632x1_0_1
        (broadcastInDim S1x1 ![1] bcast_S1_S1x1_1 (constantI S1 32 99999#32)))))
    (constantI S_ 1 1#1) reducesTo_S1605632x1_S1605632_d1 h_S_

/-- The table's rows at the starts, a row whose start is outside the table replaced by the fill word. -/
def takeRows (T : FVec F S100000x128 .f32) (ids : IVec S1605632 32) : FVec F S1605632x128 .f32 :=
  select (broadcastInDim S1605632x128 ![0] bcast_S1605632_S1605632x128_0 (inTable ids))
    (Host.gather gather_S100000x128_S1605632x1_S1605632x128_1_0_n_n_0_1_1128 T (starts ids))
    (broadcastInDim S1605632x128 ![] bcast_S_S1605632x128 (constant S_ .f32 0x7FC00000#32))

/-- A signed "less than" between two words is 1 exactly when it holds of the words read signed … -/
private theorem cmpi_slt_iff (x y : BitVec 32) : IntOp.cmpi .slt x y = 1#1 ↔ x.toInt < y.toInt := by
  simp only [IntOp.cmpi, StableHlo.Predicate.ofBool_eq_one_iff, BitVec.slt_iff_toInt_lt]
/-- … and so are "at most" … -/
private theorem cmpi_sle_iff (x y : BitVec 32) : IntOp.cmpi .sle x y = 1#1 ↔ x.toInt ≤ y.toInt := by
  simp only [IntOp.cmpi, StableHlo.Predicate.ofBool_eq_one_iff, BitVec.sle_iff_toInt_le]
/-- … and "at least". -/
private theorem cmpi_sge_iff (x y : BitVec 32) : IntOp.cmpi .sge x y = 1#1 ↔ y.toInt ≤ x.toInt := by
  simp only [IntOp.cmpi, StableHlo.Predicate.ofBool_eq_one_iff, BitVec.sle_iff_toInt_le]

/-- The wrapped word of an integer in `[-100000, 100000)`, read signed, lies in `[0, 99999]`: a negative one has
    100000 added without wrapping around, another is left as it is. -/
private theorem wrap_range (v : BitVec 32) (hlo : -100000 ≤ v.toInt) (hhi : v.toInt < 100000) :
    0 ≤ (Cert.EdgeScore.wrap v).toInt ∧ (Cert.EdgeScore.wrap v).toInt ≤ 99999 := by
  have h0 : (0#32 : BitVec 32).toInt = 0 := by decide
  have hk : (100000#32 : BitVec 32).toInt = 100000 := by decide
  unfold Cert.EdgeScore.wrap
  by_cases hneg : v.toInt < 0
  · have hc : IntOp.cmpi .slt v 0#32 = 1#1 := (cmpi_slt_iff v 0#32).mpr (by rw [h0]; exact hneg)
    rw [hc, select_one]
    unfold IntOp.addi
    rw [BitVec.toInt_add, hk, Int.bmod_eq_of_le (by omega) (by omega)]
    omega
  · have hc : IntOp.cmpi .slt v 0#32 = 0#1 :=
      eq_zero_of_ne_one fun h => hneg (by have := (cmpi_slt_iff v 0#32).mp h; rwa [h0] at this)
    rw [hc, select_zero]
    omega

/-- The wrapped integers read at an entry: the scalar zero and the scalar 100000 broadcast read themselves. -/
private theorem wrapped_apply (ids : IVec S1605632 32) (e : Fin 1605632) :
    wrapped ids (ix1 e) = Cert.EdgeScore.wrap (ids (ix1 e)) := rfl

/-- The start of row `e` is entry `e`'s wrapped integer. -/
private theorem starts_apply (ids : IVec S1605632 32) (e : Fin 1605632) :
    starts ids (ix2 e (0 : Fin 1)) = Cert.EdgeScore.wrap (ids (ix1 e)) := by
  unfold starts
  refine (broadcastInDim_apply _ _ _ _ (ix1 e) ?_).trans (wrapped_apply ids e)
  intro a
  match a with
  | ⟨0, _⟩ => rfl

/-- A left fold by `and` from 1 over one-bit words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a List.mem_cons_self]; decide
    rw [List.foldl_cons, ha]
    exact foldl_andi_one f l fun n hn => h n (List.mem_cons_of_mem _ hn)

/-- Where the integer lies in `[-100000, 100000)` the range test passes: the one start the reduction over the unit axis
    meets, the wrapped integer, is at least 0 and at most 99999. -/
private theorem inTable_apply (ids : IVec S1605632 32) (e : Fin 1605632)
    (hlo : -100000 ≤ (ids (ix1 e)).toInt) (hhi : (ids (ix1 e)).toInt < 100000) : inTable ids (ix1 e) = 1#1 := by
  obtain ⟨h0, h1⟩ := wrap_range _ hlo hhi
  unfold inTable
  rw [Host.reduce_eq_foldl]
  refine foldl_andi_one _ _ fun i hi => ?_
  have hd : reducesTo_S1605632x1_S1605632_d1.drop i = ix1 e := of_decide_eq_true (List.mem_filter.mp hi).2
  obtain ⟨p, q, rfl⟩ : ∃ (p : Fin 1605632) (q : Fin 1), i = ix2 p q := ⟨i 0, i 1, eq_ix2 i⟩
  obtain rfl : q = 0 := Subsingleton.elim _ _
  obtain rfl : p = e := Fin.ext (congrArg (fun j : S1605632.Idx => (j 0).val) hd)
  show IntOp.andi (IntOp.cmpi .sge (starts ids (ix2 p 0)) 0#32) (IntOp.cmpi .sle (starts ids (ix2 p 0)) 99999#32) = 1#1
  rw [starts_apply,
    (cmpi_sge_iff _ _).mpr (by rw [show (0#32 : BitVec 32).toInt = 0 from by decide]; exact h0),
    (cmpi_sle_iff _ _).mpr (by rw [show (99999#32 : BitVec 32).toInt = 99999 from by decide]; exact h1)]
  decide

/-- The padding leaves the first 1600000 integers in place. -/
theorem padded_apply (r : IVec S1600000 32) (e : Fin 1600000) :
    padded r (ix1 (⟨e.val, by omega⟩ : Fin 1605632)) = r (ix1 e) := by
  unfold padded
  refine pad_apply_of_inside _ _ _ _ _ _ _ _ (ix1 e) ?_
  intro a
  match a with
  | ⟨0, _⟩ => simp

/-- Where the integer is a valid index of the 100000 rows, negative ones counting from the end, the rows read are the
    table's: nothing is replaced, and the clamp does nothing. -/
theorem takeRows_apply (T : FVec Ideal S100000x128 .f32) (ids : IVec S1605632 32) (e : Fin 1605632) (h : Fin 128)
    (hlo : -100000 ≤ (ids (ix1 e)).toInt) (hhi : (ids (ix1 e)).toInt < 100000) :
    takeRows (F := Ideal) T ids (ix2 e h) = T (ix2 (Cert.EdgeScore.row (ids (ix1 e))) h) := by
  unfold takeRows
  rw [select_apply]
  -- the condition's bit at (e, h) is the range test of entry e
  have hc : broadcastInDim S1605632x128 ![0] bcast_S1605632_S1605632x128_0 (inTable ids) (ix2 e h) = 1#1 := by
    refine (broadcastInDim_apply _ _ _ _ (ix1 e) ?_).trans (inTable_apply ids e hlo hhi)
    intro a
    match a with
    | ⟨0, _⟩ => rfl
  rw [hc, select_one]
  -- the gathered row at (e, h): the table at the clamped start, which is the row the integer reads
  refine (Cert.EdgeScore.GatherRows.gather_rows_apply (N := 100000) (C := 128) (R := 1605632) (by decide)
    gather_S100000x128_S1605632x1_S1605632x128_1_0_n_n_0_1_1128_wf T (starts ids) e h).trans ?_
  refine congrArg (fun p : Fin 100000 => T (ix2 p h)) (Fin.ext ?_)
  show min (starts ids (ix2 e (0 : Fin 1))).toInt.toNat (100000 - 1) = (Cert.EdgeScore.row (ids (ix1 e))).val
  rw [starts_apply]
  rfl

end Cert.KernelIdeal.TakeRows

end
-- ==== Proof.HostChain.lean ====
/-
  The kernel's program between its regions, as plain functions of the buffers.

  Before the first region the first layer's weights are cut into their two 128 × 128 halves, each transposed (the
  change of format that follows is the identity over the extended reals), and the two rows of endpoint integers are
  flattened. Between the regions each row of integers is padded to 1605632, each of the two per-node tables is read at
  the padded integers (`TakeRows.takeRows`), the two results are added and regrouped 128 edges to a group, and the two
  biases and the second layer's weights are reshaped. After the second region the groups are flattened again and the
  first 1600000 entries kept.

  A value that passes through a function call of the program is carried to the type of the buffer that holds it and
  back; `ofBuf_toBuf` says the round trip is the identity, and for each buffer read at a call's edge the carrying is
  the identity because the buffer's type is the value's.
-/
import proofs.«427170_j10007273800198_3_alg».proof.Proof.Gen.KernelIdeal.Frame
import proofs.«427170_j10007273800198_3_alg».proof.Proof.TakeRows
import Idealize.ShloMosaic.Lib.StableHlo.Run

set_option maxRecDepth 16384

noncomputable section

namespace Cert.KernelIdeal.HostChain

open Cert.KernelIdeal Cert.KernelIdeal.Gen Cert.KernelIdeal.TakeRows Idealize.ShloMosaic Idealize.ShloMosaic.TcCoe Idealize.SL.Sem Idealize.ShloMosaic.StableHlo

/-- Contents carried to a buffer's own type and back are the contents. -/
theorem ofBuf_toBuf {T : BufTy} (x : StableHlo.TRef sig T) (v : T.Contents (Elt Ideal)) : x.ofBuf (x.toBuf v) = v := by
  obtain ⟨r, h, h2, h3⟩ := x
  subst h
  rfl

/-! ## The typed references at the edges of the program's function calls: carrying is the identity -/

abbrev tLeft : StableHlo.TRef sig ⟨S100000x128, .f32⟩ := TRef.of main_v10_0
abbrev tRight : StableHlo.TRef sig ⟨S100000x128, .f32⟩ := TRef.of main_v10_1
abbrev tEnds0 : StableHlo.TRef sig ⟨S1600000, .i32⟩ := TRef.of main_v1
abbrev tEnds1 : StableHlo.TRef sig ⟨S1600000, .i32⟩ := TRef.of main_v3
abbrev tZero0 : StableHlo.TRef sig ⟨S_, .i32⟩ := TRef.of main_c
abbrev tZero1 : StableHlo.TRef sig ⟨S_, .i32⟩ := TRef.of main_c_0
abbrev tRows0 : StableHlo.TRef sig ⟨S1605632x128, .f32⟩ := TRef.of main_v13
abbrev tRows1 : StableHlo.TRef sig ⟨S1605632x128, .f32⟩ := TRef.of main_v14

theorem ofBuf_left (v : FVec Ideal S100000x128 .f32) : tLeft.ofBuf (Val := Elt Ideal) v = v := rfl
theorem ofBuf_right (v : FVec Ideal S100000x128 .f32) : tRight.ofBuf (Val := Elt Ideal) v = v := rfl
theorem ofBuf_ends0 (v : IVec S1600000 32) : tEnds0.ofBuf (Val := Elt Ideal) v = v := rfl
theorem ofBuf_ends1 (v : IVec S1600000 32) : tEnds1.ofBuf (Val := Elt Ideal) v = v := rfl
theorem ofBuf_zero0 (v : IVec S_ 32) : tZero0.ofBuf (Val := Elt Ideal) v = v := rfl
theorem ofBuf_zero1 (v : IVec S_ 32) : tZero1.ofBuf (Val := Elt Ideal) v = v := rfl
theorem toBuf_rows0 (v : FVec Ideal S1605632x128 .f32) : tRows0.toBuf (Val := Elt Ideal) v = v := rfl
theorem toBuf_rows1 (v : FVec Ideal S1605632x128 .f32) : tRows1.toBuf (Val := Elt Ideal) v = v := rfl

/-! ## The endpoint integers -/

/-- The first endpoints of the edges: row 0 of the pairs, flattened. -/
def ends0 (p : IVec S2x1600000 32) : IVec S1600000 32 :=
  shapeCast S1600000 (extractStridedSlice S1x1600000 ![0, 0] p Facts₀.slices_S2x1600000_S1x1600000_0_0) Facts₀.shapeCasts_S1x1600000_S1600000
/-- The second endpoints: row 1. -/
def ends1 (p : IVec S2x1600000 32) : IVec S1600000 32 :=
  shapeCast S1600000 (extractStridedSlice S1x1600000 ![1, 0] p Facts₀.slices_S2x1600000_S1x1600000_1_0) Facts₀.shapeCasts_S1x1600000_S1600000

/-- A half of the first layer's weights, transposed: what the first region multiplies by. -/
def halfT (off : Fin 2 → Nat) (h : S128x256.Slices off S128x128) (w : FVec Ideal S128x256 .f32) : FVec Ideal S128x128 .bf16 :=
  truncf (F := Ideal) .bf16 (transpose S128x128 [1, 0] (extractStridedSlice S128x128 off w h) Facts₀.transposes_S128x128_S128x128_1_0) Facts₀.bitsLt_bf16_f32

variable (m : (ℓ : Loc nD τ sig) → Buf (Elt Ideal) ℓ) (ρ : Dev nD → PrngReg) (c : Dev nD)

/-! ## At the first region's entry -/

theorem entry0_table : V1 m ρ c main_arg0 = m ((c : Thread nD τ).loc main_arg0) := by
  show StableHlo.after hostOps0 (W0 m ρ c) (Proc.devRef .tc main_arg0) = _
  after_results

theorem entry0_left : V1 m ρ c main_v7 = halfT ![0, 0] Facts₀.slices_S128x256_S128x128_0_0 (m ((c : Thread nD τ).loc main_arg2)) := by
  show StableHlo.after hostOps0 (W0 m ρ c) (Proc.devRef .tc main_v7) = _
  after_results
  rfl

theorem entry0_right : V1 m ρ c main_v9 = halfT ![0, 128] Facts₀.slices_S128x256_S128x128_0_128 (m ((c : Thread nD τ).loc main_arg2)) := by
  show StableHlo.after hostOps0 (W0 m ρ c) (Proc.devRef .tc main_v9) = _
  after_results
  rfl

theorem entry0_ends0 : W1 m ρ c (Proc.devRef .tc main_v1) = ends0 (m ((c : Thread nD τ).loc main_arg1)) := by
  show StableHlo.after hostOps0 (W0 m ρ c) (Proc.devRef .tc main_v1) = _
  after_results
  rfl

theorem entry0_ends1 : W1 m ρ c (Proc.devRef .tc main_v3) = ends1 (m ((c : Thread nD τ).loc main_arg1)) := by
  show StableHlo.after hostOps0 (W0 m ρ c) (Proc.devRef .tc main_v3) = _
  after_results
  rfl

/-- An argument array at the first region's entry is the launch memory's. -/
theorem entry0_arg3 : W1 m ρ c (Proc.devRef .tc main_arg3) = m ((c : Thread nD τ).loc main_arg3) := by
  show StableHlo.after hostOps0 (W0 m ρ c) (Proc.devRef .tc main_arg3) = _
  after_results
theorem entry0_arg4 : W1 m ρ c (Proc.devRef .tc main_arg4) = m ((c : Thread nD τ).loc main_arg4) := by
  show StableHlo.after hostOps0 (W0 m ρ c) (Proc.devRef .tc main_arg4) = _
  after_results
theorem entry0_arg5 : W1 m ρ c (Proc.devRef .tc main_arg5) = m ((c : Thread nD τ).loc main_arg5) := by
  show StableHlo.after hostOps0 (W0 m ρ c) (Proc.devRef .tc main_arg5) = _
  after_results

/-! ## Across the first region -/

theorem exit0_left : W2 m ρ c (Proc.devRef .tc main_v10_0) = (dat0 (V1 m ρ) c).arrAt 3 cfg0.N := W2_arr m ρ c 3
theorem exit0_right : W2 m ρ c (Proc.devRef .tc main_v10_1) = (dat0 (V1 m ρ) c).arrAt 4 cfg0.N := W2_arr m ρ c 4
theorem exit0_ends0 : W2 m ρ c (Proc.devRef .tc main_v1) = ends0 (m ((c : Thread nD τ).loc main_arg1)) :=
  (W2_of_ne m ρ c main_v1 (by decide)).trans (entry0_ends0 m ρ c)
theorem exit0_ends1 : W2 m ρ c (Proc.devRef .tc main_v3) = ends1 (m ((c : Thread nD τ).loc main_arg1)) :=
  (W2_of_ne m ρ c main_v3 (by decide)).trans (entry0_ends1 m ρ c)
theorem exit0_arg3 : W2 m ρ c (Proc.devRef .tc main_arg3) = m ((c : Thread nD τ).loc main_arg3) :=
  (W2_of_ne m ρ c main_arg3 (by decide)).trans (entry0_arg3 m ρ c)
theorem exit0_arg4 : W2 m ρ c (Proc.devRef .tc main_arg4) = m ((c : Thread nD τ).loc main_arg4) :=
  (W2_of_ne m ρ c main_arg4 (by decide)).trans (entry0_arg4 m ρ c)
theorem exit0_arg5 : W2 m ρ c (Proc.devRef .tc main_arg5) = m ((c : Thread nD τ).loc main_arg5) :=
  (W2_of_ne m ρ c main_arg5 (by decide)).trans (entry0_arg5 m ρ c)

/-! ## Between the regions, from any contents `W` at the first region's exit -/

section Between
variable (W : Valuation τ sig (Elt Ideal))

/-- The contents at the second region's entry, from `W`. -/
abbrev between : Valuation τ sig (Elt Ideal) :=
  StableHlo.after hostOps1_6 (StableHlo.after hostOps1_5 (StableHlo.after hostOps1_4 (StableHlo.after hostOps1_3 (StableHlo.after hostOps1_2
    (StableHlo.after hostOps1_1 (StableHlo.after hostOps1 W))))))

set_option maxHeartbeats 2000000 in
/-- The regrouped sums, with the carrying at the calls' edges still written. -/
theorem between_sums_raw : between W (Proc.devRef .tc main_v16)
    = shapeCast S12544x128x128 (addf (F := Ideal) (φ := .f32)
        (tRows0.toBuf (Val := Elt Ideal) (takeRows (F := Ideal) (tLeft.ofBuf (Val := Elt Ideal) (W (Proc.devRef .tc main_v10_0)))
          (pad S1605632 ![0] ![5632] ![0] (tEnds0.ofBuf (Val := Elt Ideal) (W (Proc.devRef .tc main_v1))) (id (tZero0.ofBuf (Val := Elt Ideal) (constantI S_ 32 0#32)))
            Facts₀.pads_S1600000_S1605632_056320 Facts₀.h_S_)) : FVec Ideal S1605632x128 .f32)
        (tRows1.toBuf (Val := Elt Ideal) (takeRows (F := Ideal) (tRight.ofBuf (Val := Elt Ideal) (W (Proc.devRef .tc main_v10_1)))
          (pad S1605632 ![0] ![5632] ![0] (tEnds1.ofBuf (Val := Elt Ideal) (W (Proc.devRef .tc main_v3))) (id (tZero1.ofBuf (Val := Elt Ideal) (constantI S_ 32 0#32)))
            Facts₀.pads_S1600000_S1605632_056320 Facts₀.h_S_)) : FVec Ideal S1605632x128 .f32))
        Facts₀.shapeCasts_S1605632x128_S12544x128x128 := by
  after_results_simp
  simp only [ofBuf_toBuf]
  unfold takeRows inTable starts wrapped
  rfl

/-- The regrouped sums: the two tables read at the padded endpoint integers, added. -/
theorem between_sums : between W (Proc.devRef .tc main_v16)
    = shapeCast S12544x128x128 (addf (F := Ideal) (φ := .f32)
        (takeRows (F := Ideal) (W (Proc.devRef .tc main_v10_0)) (padded (W (Proc.devRef .tc main_v1))))
        (takeRows (F := Ideal) (W (Proc.devRef .tc main_v10_1)) (padded (W (Proc.devRef .tc main_v3)))))
        Facts₀.shapeCasts_S1605632x128_S12544x128x128 := by
  rw [between_sums_raw, ofBuf_left, ofBuf_right, ofBuf_ends0, ofBuf_ends1, ofBuf_zero0]
  try rw [ofBuf_zero1]
  rw [toBuf_rows0]
  try rw [toBuf_rows1]
  rfl

set_option maxHeartbeats 2000000 in
theorem between_bias1 : between W (Proc.devRef .tc main_v17) = shapeCast S1x1x128 (W (Proc.devRef .tc main_arg3)) Facts₀.shapeCasts_S128_S1x1x128 := by
  after_results_simp
  rfl
set_option maxHeartbeats 2000000 in
theorem between_w2 : between W (Proc.devRef .tc main_v18) = shapeCast S1x1x128 (W (Proc.devRef .tc main_arg4)) Facts₀.shapeCasts_S1x128_S1x1x128 := by
  after_results_simp
  rfl
set_option maxHeartbeats 2000000 in
theorem between_bias2 : between W (Proc.devRef .tc main_v19) = shapeCast S1x1 (W (Proc.devRef .tc main_arg5)) Facts₀.shapeCasts_S1_S1x1 := by
  after_results_simp
  rfl

end Between

/-! ## At the second region's entry, and after it -/

theorem entry1_sums : V9 m ρ c main_v16
    = shapeCast S12544x128x128 (addf (F := Ideal) (φ := .f32)
        (takeRows (F := Ideal) ((dat0 (V1 m ρ) c).arrAt 3 cfg0.N) (padded (ends0 (m ((c : Thread nD τ).loc main_arg1)))))
        (takeRows (F := Ideal) ((dat0 (V1 m ρ) c).arrAt 4 cfg0.N) (padded (ends1 (m ((c : Thread nD τ).loc main_arg1))))))
        Facts₀.shapeCasts_S1605632x128_S12544x128x128 := by
  show between (W2 m ρ c) (Proc.devRef .tc main_v16) = _
  rw [between_sums, exit0_left, exit0_right, exit0_ends0, exit0_ends1]

theorem entry1_bias1 : V9 m ρ c main_v17 = shapeCast S1x1x128 (m ((c : Thread nD τ).loc main_arg3)) Facts₀.shapeCasts_S128_S1x1x128 := by
  show between (W2 m ρ c) (Proc.devRef .tc main_v17) = _
  rw [between_bias1, exit0_arg3]
theorem entry1_w2 : V9 m ρ c main_v18 = shapeCast S1x1x128 (m ((c : Thread nD τ).loc main_arg4)) Facts₀.shapeCasts_S1x128_S1x1x128 := by
  show between (W2 m ρ c) (Proc.devRef .tc main_v18) = _
  rw [between_w2, exit0_arg4]
theorem entry1_bias2 : V9 m ρ c main_v19 = shapeCast S1x1 (m ((c : Thread nD τ).loc main_arg5)) Facts₀.shapeCasts_S1_S1x1 := by
  show between (W2 m ρ c) (Proc.devRef .tc main_v19) = _
  rw [between_bias2, exit0_arg5]

theorem exit1_out : W10 m ρ c (Proc.devRef .tc main_v20) = (dat1 (V9 m ρ) c).arrAt 4 cfg1.N := W10_arr m ρ c 4

/-- The result array: the second region's output, flattened, its first 1600000 entries. -/
theorem result_eq : W11 m ρ c (Proc.devRef .tc main_v22)
    = extractStridedSlice S1600000 ![0] (shapeCast S1605632 ((dat1 (V9 m ρ) c).arrAt 4 cfg1.N) Facts₀.shapeCasts_S12544x128_S1605632) Facts₀.slices_S1605632_S1600000_0 := by
  show StableHlo.after hostOps2 (W10 m ρ c) (Proc.devRef .tc main_v22) = _
  after_results
  rw [exit1_out]
  rfl

end Cert.KernelIdeal.HostChain

end
-- ==== Proof.NodeProj.lean ====
/-
  The first region: every node's embedding through the two halves of the first layer's weights, once per node.
  Each grid point takes 10000 rows of the table and both 128 × 128 weight blocks and writes the rows' two products;
  the ten blocks tile the 100000 rows, so the two final arrays are, entry by entry,
      left[n, o] = ∑ k, table[n, k] · wLeft[k, o]      right[n, o] = ∑ k, table[n, k] · wRight[k, o]
  over the extended reals (the narrowing of the table to bf16 before the product is the identity there).
-/
import proofs.«427170_j10007273800198_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.NodeProj

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The embedding table as the region finds it. -/
abbrev table (c : Dev nD) : FVec Ideal S100000x128 .f32 := V c main_arg0
/-- The left half of the first layer's weights, transposed, as the region finds it. -/
abbrev wLeft (c : Dev nD) : FVec Ideal S128x128 .bf16 := V c main_v7
/-- The right half. -/
abbrev wRight (c : Dev nD) : FVec Ideal S128x128 .bf16 := V c main_v9

/-! ## The product of one block of rows with a weight block, entry by entry -/

/-- The zero offsets of a whole-block access, as the constant function. -/
private theorem hz : (![0, 0] : Fin 2 → Nat) = fun _ => 0 := funext fun a => by fin_cases a <;> rfl

/-- The product's left operand is read at the result's row … -/
private theorem lhs_ax0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and at the summation index along its columns; -/
private theorem lhs_ax1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- the right operand at the summation index along its rows … -/
private theorem rhs_ax0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and at the result's column. -/
private theorem rhs_ax1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into a zero accumulator, entry (r, o): the sum over k of x[r, k] · w[k, o]. -/
private theorem matmul_zero_apply (x : FVec Ideal S10000x128 .bf16) (w : FVec Ideal S128x128 .bf16) (r : Fin 10000) (o : Fin 128) :
    (matmul dot_S10000x128_S128x128_S10000x128_1_0_0_1_n_n none x w (constant (F := Ideal) S10000x128 .f32 0x00000000#32) : FVec Ideal S10000x128 .f32) (ix2 r o)
      = ∑ k : Fin 128, x (ix2 r k) * w (ix2 k o) := by
  refine (Ideal.matmul_constant_zero_apply dot_S10000x128_S128x128_S10000x128_1_0_0_1_n_n none x w (ix2 r o)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r o) ((contrEquiv1 dot_S10000x128_S128x128_S10000x128_1_0_0_1_n_n 128 rfl rfl).symm k) = ix2 r k := funext fun a => Fin.ext (by
    match a with
    | ⟨0, _⟩ => exact lhs_ax0 _ _
    | ⟨1, _⟩ => exact (lhs_ax1 _ _).trans hk)
  have er : dot_S10000x128_S128x128_S10000x128_1_0_0_1_n_n.rhsIdx (ix2 r o) ((contrEquiv1 dot_S10000x128_S128x128_S10000x128_1_0_0_1_n_n 128 rfl rfl).symm k) = ix2 k o := funext fun a => Fin.ext (by
    match a with
    | ⟨0, _⟩ => exact (rhs_ax0 _ _).trans hk
    | ⟨1, _⟩ => exact rhs_ax1 _ _)
  rw [el, er]

/-- The first output's payload, entry (r, o): the narrowing is the identity, the reshape to the same shape too. -/
private theorem pay2_apply (x0 : Vec Ideal S10000x128 .f32) (x1 : Vec Ideal S128x128 .bf16) (r : Fin 10000) (o : Fin 128) :
    k0_pay2 (F := Ideal) x0 x1 (ix2 r o) = ∑ k : Fin 128, x0 (ix2 r k) * x1 (ix2 k o) := by
  unfold k0_pay2 k0_pay1
  rw [shapeCast_self]
  exact matmul_zero_apply _ _ r o

/-- The second output's payload, likewise. -/
private theorem pay3_apply (x0 : Vec Ideal S10000x128 .f32) (x2 : Vec Ideal S128x128 .bf16) (r : Fin 10000) (o : Fin 128) :
    k0_pay3 (F := Ideal) x0 x2 (ix2 r o) = ∑ k : Fin 128, x0 (ix2 r k) * x2 (ix2 k o) := by
  unfold k0_pay3 k0_pay1
  rw [shapeCast_self]
  exact matmul_zero_apply _ _ r o

/-! ## The windows' blocks, read at an entry -/

/-- The block indices of the five windows at a point, decided over the ten points: the table's block and the two
    outputs' blocks are the point's, the weights' block is the one there is. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The table's block at point t, entry (r, q), is the table's entry (10000 t + r, q). -/
private theorem tableBlk_apply (c : Dev nD) (t : Fin cfg0.N) (r : Fin 10000) (q : Fin 128) (h : t.val * 10000 + r.val < 100000) :
    (iblk0 V c 0 t : Vec Ideal S10000x128 .f32) (ix2 r q) = table V c (ix2 ⟨t.val * 10000 + r.val, h⟩ q) := by
  obtain ⟨e0, e1, -⟩ := idx_facts t
  unfold iblk0
  rw [View.read_apply]
  show V c main_arg0 _ = V c main_arg0 _
  congr 1
  funext a; apply Fin.ext
  match a with
  | ⟨0, _⟩ => show win0_0.index t (0 : Fin 2) * 10000 + 1 * r.val = t.val * 10000 + r.val; rw [e0]; omega
  | ⟨1, _⟩ => show win0_0.index t (1 : Fin 2) * 128 + 1 * q.val = q.val; rw [e1]; omega

/-- The left weights' block at any point is the whole of the left weights. -/
private theorem wLeftBlk_apply (c : Dev nD) (t : Fin cfg0.N) (k : Fin 128) (o : Fin 128) :
    (iblk0 V c 1 t : Vec Ideal S128x128 .bf16) (ix2 k o) = wLeft V c (ix2 k o) := by
  obtain ⟨-, -, e0, e1, -⟩ := idx_facts t
  unfold iblk0
  rw [View.read_apply]
  show V c main_v7 _ = V c main_v7 _
  congr 1
  funext a; apply Fin.ext
  match a with
  | ⟨0, _⟩ => show win0_1.index t (0 : Fin 2) * 128 + 1 * k.val = k.val; rw [e0]; omega
  | ⟨1, _⟩ => show win0_1.index t (1 : Fin 2) * 128 + 1 * o.val = o.val; rw [e1]; omega

/-- The right weights' block at any point is the whole of the right weights. -/
private theorem wRightBlk_apply (c : Dev nD) (t : Fin cfg0.N) (k : Fin 128) (o : Fin 128) :
    (iblk0 V c 2 t : Vec Ideal S128x128 .bf16) (ix2 k o) = wRight V c (ix2 k o) := by
  obtain ⟨-, -, -, -, e0, e1, -⟩ := idx_facts t
  unfold iblk0
  rw [View.read_apply]
  show V c main_v9 _ = V c main_v9 _
  congr 1
  funext a; apply Fin.ext
  match a with
  | ⟨0, _⟩ => show win0_2.index t (0 : Fin 2) * 128 + 1 * k.val = k.val; rw [e0]; omega
  | ⟨1, _⟩ => show win0_2.index t (1 : Fin 2) * 128 + 1 * o.val = o.val; rw [e1]; omega

/-! ## From the blocks to the arrays -/

/-- The table times the left weights, as one array. -/
private def prodL (c : Dev nD) : FVec Ideal S100000x128 .f32 :=
  fun i => ∑ k : Fin 128, table V c (ix2 (i 0) k) * wLeft V c (ix2 k (i 1))

/-- The table times the right weights, as one array. -/
private def prodR (c : Dev nD) : FVec Ideal S100000x128 .f32 :=
  fun i => ∑ k : Fin 128, table V c (ix2 (i 0) k) * wRight V c (ix2 k (i 1))

/-- The ten points are the numbers below ten. -/
private theorem point_lt (t : Fin cfg0.N) : t.val < 10 :=
  Nat.lt_of_lt_of_eq t.isLt N_0

/-- What point t writes back to the first output is block t of the product with the left weights. -/
private theorem flushedL_eq (c : Dev nD) (t : Fin cfg0.N) :
    (dat0 (F := Ideal) V c).flushed 3 t = ((cfg0.win 3).blk t).view.read (Elt Ideal) (prodL V c) := by
  show (cfg0.win 3).cut (grid0.coords t) ((dat0 (F := Ideal) V c).after 3 t) = _
  rw [after0_3]
  unfold out0_3
  rw [View.canon_unit_zero hz]
  simp only [View.ld_unit_zero (S := S10000x128) hz, View.ld_unit_zero (S := S128x128) hz]
  funext j
  obtain ⟨r, q, rfl⟩ : ∃ (r : Fin 10000) (q : Fin 128), j = ix2 r q := ⟨j 0, j 1, eq_ix2 j⟩
  have ht := point_lt t
  obtain ⟨-, -, -, -, -, -, e0, e1, -⟩ := idx_facts t
  have hrow : t.val * 10000 + r.val < 100000 := by have := r.isLt; omega
  have hemb : ((cfg0.win 3).blk t).view.emb (ix2 r q) = (ix2 ⟨t.val * 10000 + r.val, hrow⟩ q : S100000x128.Idx) := by
    funext a; apply Fin.ext
    match a with
    | ⟨0, _⟩ => show win0_3.index t (0 : Fin 2) * 10000 + 1 * r.val = t.val * 10000 + r.val; rw [e0]; omega
    | ⟨1, _⟩ => show win0_3.index t (1 : Fin 2) * 128 + 1 * q.val = q.val; rw [e1]; omega
  rw [View.read_apply, hemb]
  show k0_pay2 (F := Ideal) (iblk0 V c 0 t) (iblk0 V c 1 t) (ix2 r q) = ∑ k : Fin 128, table V c (ix2 ⟨t.val * 10000 + r.val, hrow⟩ k) * wLeft V c (ix2 k q)
  rw [pay2_apply]
  refine Finset.sum_congr rfl fun k _ => ?_
  rw [tableBlk_apply V c t r k hrow, wLeftBlk_apply V c t k q]

/-- An entry of the first output array is in point t's block iff each coordinate is in the block's range. -/
private theorem mem_blkL (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v10_0).slice (win0_3.rect t)).set ↔ _
  rw [View.set_slice_whole, Rect.mem_set_unit]
  exact Iff.rfl

/-- The ten blocks of rows tile the first output array: row n is in block n / 10000. -/
private theorem coverL (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  refine ⟨⟨(i 0).val / 10000, by rw [show cfg0.N = 10 from N_0]; omega⟩, flush0_3 _, ?_⟩
  rw [mem_blkL]
  obtain ⟨-, -, -, -, -, -, e0, e1, -⟩ := idx_facts ⟨(i 0).val / 10000, by rw [show cfg0.N = 10 from N_0]; omega⟩
  intro a
  match a with
  | ⟨0, _⟩ =>
    show win0_3.index _ (0 : Fin 2) * 10000 ≤ (i 0).val ∧ (i 0).val < win0_3.index _ (0 : Fin 2) * 10000 + 10000
    rw [e0]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e1]; omega

/-- So the first output array ends holding the product with the left weights. -/
private theorem finalL (c : Dev nD) : (dat0 (F := Ideal) V c).arrAt 3 cfg0.N = prodL V c :=
  (dat0 (F := Ideal) V c).arrAt_eq_of_cover 3 (prodL V c) (fun t _ => flushedL_eq V c t) coverL

/-- What point t writes back to the second output is block t of the product with the right weights. -/
private theorem flushedR_eq (c : Dev nD) (t : Fin cfg0.N) :
    (dat0 (F := Ideal) V c).flushed 4 t = ((cfg0.win 4).blk t).view.read (Elt Ideal) (prodR V c) := by
  show (cfg0.win 4).cut (grid0.coords t) ((dat0 (F := Ideal) V c).after 4 t) = _
  rw [after0_4]
  unfold out0_4
  rw [View.canon_unit_zero hz]
  simp only [View.ld_unit_zero (S := S10000x128) hz, View.ld_unit_zero (S := S128x128) hz]
  funext j
  obtain ⟨r, q, rfl⟩ : ∃ (r : Fin 10000) (q : Fin 128), j = ix2 r q := ⟨j 0, j 1, eq_ix2 j⟩
  have ht := point_lt t
  obtain ⟨-, -, -, -, -, -, -, -, e0, e1⟩ := idx_facts t
  have hrow : t.val * 10000 + r.val < 100000 := by have := r.isLt; omega
  have hemb : ((cfg0.win 4).blk t).view.emb (ix2 r q) = (ix2 ⟨t.val * 10000 + r.val, hrow⟩ q : S100000x128.Idx) := by
    funext a; apply Fin.ext
    match a with
    | ⟨0, _⟩ => show win0_4.index t (0 : Fin 2) * 10000 + 1 * r.val = t.val * 10000 + r.val; rw [e0]; omega
    | ⟨1, _⟩ => show win0_4.index t (1 : Fin 2) * 128 + 1 * q.val = q.val; rw [e1]; omega
  rw [View.read_apply, hemb]
  show k0_pay3 (F := Ideal) (iblk0 V c 0 t) (iblk0 V c 2 t) (ix2 r q) = ∑ k : Fin 128, table V c (ix2 ⟨t.val * 10000 + r.val, hrow⟩ k) * wRight V c (ix2 k q)
  rw [pay3_apply]
  refine Finset.sum_congr rfl fun k _ => ?_
  rw [tableBlk_apply V c t r k hrow, wRightBlk_apply V c t k q]

/-- An entry of the second output array is in point t's block iff each coordinate is in the block's range. -/
private theorem mem_blkR (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v10_1).slice (win0_4.rect t)).set ↔ _
  rw [View.set_slice_whole, Rect.mem_set_unit]
  exact Iff.rfl

/-- The ten blocks of rows tile the second output array: row n is in block n / 10000. -/
private theorem coverR (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  refine ⟨⟨(i 0).val / 10000, by rw [show cfg0.N = 10 from N_0]; omega⟩, flush0_4 _, ?_⟩
  rw [mem_blkR]
  obtain ⟨-, -, -, -, -, -, -, -, e0, e1⟩ := idx_facts ⟨(i 0).val / 10000, by rw [show cfg0.N = 10 from N_0]; omega⟩
  intro a
  match a with
  | ⟨0, _⟩ =>
    show win0_4.index _ (0 : Fin 2) * 10000 ≤ (i 0).val ∧ (i 0).val < win0_4.index _ (0 : Fin 2) * 10000 + 10000
    rw [e0]; show (i 0).val / 10000 * 10000 ≤ (i 0).val ∧ (i 0).val < (i 0).val / 10000 * 10000 + 10000; omega
  | ⟨1, _⟩ =>
    show win0_4.index _ (1 : Fin 2) * 128 ≤ (i 1).val ∧ (i 1).val < win0_4.index _ (1 : Fin 2) * 128 + 128
    rw [e1]; omega

/-- So the second output array ends holding the product with the right weights. -/
private theorem finalR (c : Dev nD) : (dat0 (F := Ideal) V c).arrAt 4 cfg0.N = prodR V c :=
  (dat0 (F := Ideal) V c).arrAt_eq_of_cover 4 (prodR V c) (fun t _ => flushedR_eq V c t) coverR

/-- The first output array after the region: the table times the left weights. -/
theorem left_final (c : Dev nD) (n : Fin 100000) (o : Fin 128) :
    ((dat0 (F := Ideal) V c).arrAt 3 cfg0.N : FVec Ideal S100000x128 .f32) (ix2 n o)
      = ∑ k : Fin 128, table V c (ix2 n k) * wLeft V c (ix2 k o) := by
  rw [finalL]
  rfl

/-- The second output array after the region: the table times the right weights. -/
theorem right_final (c : Dev nD) (n : Fin 100000) (o : Fin 128) :
    ((dat0 (F := Ideal) V c).arrAt 4 cfg0.N : FVec Ideal S100000x128 .f32) (ix2 n o)
      = ∑ k : Fin 128, table V c (ix2 n k) * wRight V c (ix2 k o) := by
  rw [finalR]
  rfl

end Cert.KernelIdeal.NodeProj

end
-- ==== Proof.EdgeBody.lean ====
/-
  The second region: per edge, the bias, the leaky rectifier, the second layer's weights and the sum over the 128
  hidden units. The edges come 128 to a group; each grid point takes 256 groups, and the 49 blocks tile the 12544
  groups, so the final array is, entry by entry,
      out[g, p] = (∑ h, leaky (sums[g, p, h] + bias1[0, 0, h]) · w2[0, 0, h]) + bias2[0, 0].
-/
import proofs.«427170_j10007273800198_3_alg».proof.Proof.Gen.KernelIdeal.Frame
import proofs.«427170_j10007273800198_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeBody

open Cert.KernelIdeal Cert.KernelIdeal.Gen Idealize.ShloMosaic Idealize.ShloMosaic.TcCoe Idealize.ShloMosaic.ValueIdx Idealize.SL.Sem
open Idealize.ShloMosaic.Pipeline (Dat)
open Cert.EdgeScore (leaky)

variable (V : (c : Dev nD) → (b : Ref sig .tc) → Buf (Elt Ideal) ((c : Thread nD τ).loc b))

/-- Per edge and hidden unit, the sum of the two nodes' projections, as the region finds it. -/
abbrev sums (c : Dev nD) : FVec Ideal S12544x128x128 .f32 := V c main_v16
/-- The first layer's bias. -/
abbrev bias1 (c : Dev nD) : FVec Ideal S1x1x128 .f32 := V c main_v17
/-- The second layer's weights. -/
abbrev w2 (c : Dev nD) : FVec Ideal S1x1x128 .f32 := V c main_v18
/-- The second layer's bias. -/
abbrev bias2 (c : Dev nD) : FVec Ideal S1x1 .f32 := V c main_v19

/-- A vector of 128 lanes broadcast over the block reads, at row r, edge p and lane h, its lane h. -/
private theorem lanes_apply (x : Vec Ideal S1x1x128 .f32) (r : Fin 256) (p h : Fin 128) :
    broadcastTo S256x128x128 (shapeCast S1x1x128 x shapeCasts_S1x1x128_S1x1x128) broadcasts_S1x1x128_S256x128x128 (ix3 r p h)
      = x (ix3 (0 : Fin 1) (0 : Fin 1) h) := by
  rw [shapeCast_self]
  refine broadcastTo_apply x _ (ix3 r p h) (ix3 (0 : Fin 1) (0 : Fin 1) h) fun a => ?_
  match a with
  | ⟨0, _⟩ => rfl
  | ⟨1, _⟩ => rfl
  | ⟨2, _⟩ => rfl

/-- The body's value at one row and edge of the block: the lane sum of the rectified, weighted hidden units, plus
    the second bias. -/
private theorem pay_apply (x0 : Vec Ideal S256x128x128 .f32) (x1 x2 : Vec Ideal S1x1x128 .f32) (x3 : Vec Ideal S1x1 .f32)
    (r : Fin 256) (p : Fin 128) :
    k1_pay1 (F := Ideal) x0 x1 x2 x3 (ix2 r p)
      = (∑ h : Fin 128, leaky (x0 (ix3 r p h) + x1 (ix3 (0 : Fin 1) (0 : Fin 1) h)) * x2 (ix3 (0 : Fin 1) (0 : Fin 1) h))
        + x3 (ix2 (0 : Fin 1) (0 : Fin 1)) := by
  unfold k1_pay1
  rw [addf_apply, broadcast_apply]
  congr 1
  · refine (Ideal.multiReduction_add_single _ _ reduces_S256x128x128_S256x128 _ _ (ix2 r p)).trans ?_
    show ∑ h : Fin 128, _ = _
    refine Finset.sum_congr rfl fun h _ => ?_
    have hl : reduces_S256x128x128_S256x128.lift (ix2 r p) h = ix3 r p h := by
      funext a; apply Fin.ext
      match a with
      | ⟨0, _⟩ => rfl
      | ⟨1, _⟩ => rfl
      | ⟨2, _⟩ => rfl
    rw [hl, mulf_apply, lanes_apply, select_apply, cmpf_apply, mulf_apply, addf_apply, lanes_apply, shapeCast_self,
      broadcast_apply, broadcast_apply]
    rfl
  · unfold extractAt
    congr 1
    funext a
    match a with
    | ⟨0, _⟩ => rfl
    | ⟨1, _⟩ => rfl

private theorem hz2 : (![0, 0] : Fin 2 → Nat) = fun _ => 0 := funext fun a => by fin_cases a <;> rfl
private theorem hz3 : (![0, 0, 0] : Fin 3 → Nat) = fun _ => 0 := funext fun a => by fin_cases a <;> rfl

/-- The block index maps over the 49 points: the block of sums and the output block move together along the
    groups, every other block index is zero. -/
private theorem idx_facts : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One entry of the closed form. -/
private def entry (c : Dev nD) (g : Fin 12544) (p : Fin 128) : EReal :=
  (∑ h : Fin 128, leaky (sums V c (ix3 g p h) + bias1 V c (ix3 (0 : Fin 1) (0 : Fin 1) h)) * w2 V c (ix3 (0 : Fin 1) (0 : Fin 1) h))
    + bias2 V c (ix2 (0 : Fin 1) (0 : Fin 1))

/-- What the output array ends holding, entry by entry. -/
private def closed (c : Dev nD) : FVec Ideal S12544x128 .f32 := fun i => entry V c (i 0) (i 1)

/-- Row r of point t's block of sums is row 256 t + r of the array. -/
private theorem blk0_apply (c : Dev nD) (t : Fin cfg1.N) (r : Fin 256) (p h : Fin 128) (g : Fin 12544) (hg : g.val = t.val * 256 + r.val) :
    (iblk1 V c 0 t : Vec Ideal S256x128x128 .f32) (ix3 r p h) = sums V c (ix3 g p h) := by
  obtain ⟨e0, e1, e2, -⟩ := idx_facts t
  unfold iblk1
  rw [View.read_apply]
  show V c main_v16 _ = V c main_v16 _
  congr 1
  funext a
  apply Fin.ext
  match a with
  | ⟨0, _⟩ => show win1_0.index t (0 : Fin 3) * 256 + 1 * r.val = g.val; rw [e0, hg]; omega
  | ⟨1, _⟩ => show win1_0.index t (1 : Fin 3) * 128 + 1 * p.val = p.val; rw [e1]; omega
  | ⟨2, _⟩ => show win1_0.index t (2 : Fin 3) * 128 + 1 * h.val = h.val; rw [e2]; omega

/-- Every point's block of the first bias is the whole of it. -/
private theorem blk1_apply (c : Dev nD) (t : Fin cfg1.N) (h : Fin 128) :
    (iblk1 V c 1 t : Vec Ideal S1x1x128 .f32) (ix3 (0 : Fin 1) (0 : Fin 1) h) = bias1 V c (ix3 (0 : Fin 1) (0 : Fin 1) h) := by
  obtain ⟨-, -, -, e0, e1, e2, -⟩ := idx_facts t
  unfold iblk1
  rw [View.read_apply]
  show V c main_v17 _ = V c main_v17 _
  congr 1
  funext a
  apply Fin.ext
  match a with
  | ⟨0, _⟩ => show win1_1.index t (0 : Fin 3) * 1 + 1 * 0 = 0; rw [e0]
  | ⟨1, _⟩ => show win1_1.index t (1 : Fin 3) * 1 + 1 * 0 = 0; rw [e1]
  | ⟨2, _⟩ => show win1_1.index t (2 : Fin 3) * 128 + 1 * h.val = h.val; rw [e2]; omega

/-- Every point's block of the second layer's weights is the whole of them. -/
private theorem blk2_apply (c : Dev nD) (t : Fin cfg1.N) (h : Fin 128) :
    (iblk1 V c 2 t : Vec Ideal S1x1x128 .f32) (ix3 (0 : Fin 1) (0 : Fin 1) h) = w2 V c (ix3 (0 : Fin 1) (0 : Fin 1) h) := by
  obtain ⟨-, -, -, -, -, -, e0, e1, e2, -⟩ := idx_facts t
  unfold iblk1
  rw [View.read_apply]
  show V c main_v18 _ = V c main_v18 _
  congr 1
  funext a
  apply Fin.ext
  match a with
  | ⟨0, _⟩ => show win1_2.index t (0 : Fin 3) * 1 + 1 * 0 = 0; rw [e0]
  | ⟨1, _⟩ => show win1_2.index t (1 : Fin 3) * 1 + 1 * 0 = 0; rw [e1]
  | ⟨2, _⟩ => show win1_2.index t (2 : Fin 3) * 128 + 1 * h.val = h.val; rw [e2]; omega

/-- Every point's block of the second bias is the whole of it. -/
private theorem blk3_apply (c : Dev nD) (t : Fin cfg1.N) :
    (iblk1 V c 3 t : Vec Ideal S1x1 .f32) (ix2 (0 : Fin 1) (0 : Fin 1)) = bias2 V c (ix2 (0 : Fin 1) (0 : Fin 1)) := by
  obtain ⟨-, -, -, -, -, -, -, -, -, e0, e1, -⟩ := idx_facts t
  unfold iblk1
  rw [View.read_apply]
  show V c main_v19 _ = V c main_v19 _
  congr 1
  funext a
  apply Fin.ext
  match a with
  | ⟨0, _⟩ => show win1_3.index t (0 : Fin 2) * 1 + 1 * 0 = 0; rw [e0]
  | ⟨1, _⟩ => show win1_3.index t (1 : Fin 2) * 1 + 1 * 0 = 0; rw [e1]

/-- Row r, edge p of point t's output block sits in the array at row 256 t + r, edge p. -/
private theorem out_emb (t : Fin cfg1.N) (r : Fin 256) (p : Fin 128) (g : Fin 12544) (hg : g.val = t.val * 256 + r.val) :
    ((cfg1.win 4).blk t).view.emb (ix2 r p) = ix2 g p := by
  obtain ⟨-, -, -, -, -, -, -, -, -, -, -, e0, e1⟩ := idx_facts t
  funext a
  apply Fin.ext
  match a with
  | ⟨0, _⟩ => show win1_4.index t (0 : Fin 2) * 256 + 1 * r.val = g.val; rw [e0, hg]; omega
  | ⟨1, _⟩ => show win1_4.index t (1 : Fin 2) * 128 + 1 * p.val = p.val; rw [e1]; omega

/-- A point of the grid is below 49. -/
private theorem pt_lt (t : Fin cfg1.N) : t.val < 49 := lt_of_lt_of_eq t.isLt N_1

/-- What point t writes back is its block of the closed form. -/
private theorem flushed_eq (c : Dev nD) (t : Fin cfg1.N) :
    (dat1 (F := Ideal) V c).flushed 4 t = ((cfg1.win 4).blk t).view.read (Elt Ideal) (closed V c) := by
  show (cfg1.win 4).cut (grid1.coords t) ((dat1 V c).after 4 t) = _
  rw [after1_4]
  unfold out1_4
  rw [View.canon_unit_zero hz2]
  simp only [View.ld_unit_zero (S := S256x128x128) hz3, View.ld_unit_zero (S := S1x1x128) hz3, View.ld_unit_zero (S := S1x1) hz2]
  funext j
  obtain ⟨r, p, rfl⟩ : ∃ (r : Fin 256) (p : Fin 128), j = ix2 r p := ⟨j 0, j 1, eq_ix2 j⟩
  have ht : t.val < 49 := pt_lt t
  have hx : (win1 4).xinj (grid1.coords t) (ix2 r p) = ix2 r p := by
    funext a
    match a with
    | ⟨0, _⟩ => rfl
    | ⟨1, _⟩ => rfl
  show k1_pay1 _ _ _ _ ((win1 4).xinj (grid1.coords t) (ix2 r p)) = closed V c (((cfg1.win 4).blk t).view.emb (ix2 r p))
  rw [hx, pay_apply]
  have hg : t.val * 256 + r.val < 12544 := by have := r.isLt; omega
  refine Eq.trans ?_ (congrArg (closed V c) (out_emb t r p ⟨t.val * 256 + r.val, hg⟩ rfl)).symm
  show _ = entry V c ⟨t.val * 256 + r.val, hg⟩ p
  unfold entry
  rw [blk3_apply]
  refine congrArg (· + bias2 V c (ix2 (0 : Fin 1) (0 : Fin 1))) (Finset.sum_congr rfl fun h _ => ?_)
  rw [blk0_apply V c t r p h ⟨t.val * 256 + r.val, hg⟩ rfl, blk1_apply, blk2_apply]

/-- An index of the array is in point t's block iff each coordinate is in the block's range on its axis. -/
private theorem mem_blk (t : Fin cfg1.N) (i : S12544x128.Idx) :
    i ∈ ((cfg1.win 4).blk t).view.set ↔ ∀ a : Fin 2, win1_4.index t a * S256x128.size a ≤ (i a).val
      ∧ (i a).val < win1_4.index t a * S256x128.size a + S256x128.size a := by
  show i ∈ ((View.whole main_v20).slice (win1_4.rect t)).set ↔ _
  rw [View.set_slice_whole, Rect.mem_set_unit]
  exact Iff.rfl

/-- The 49 blocks of 256 rows cover the 12544 rows: row g is in block g / 256. -/
private theorem cover (i : S12544x128.Idx) : ∃ t : Fin cfg1.N, (cfg1.win 4).flush t = true ∧ i ∈ ((cfg1.win 4).blk t).view.set := by
  have h0 : (i 0).val < 12544 := idx2_lt0 i
  have h1 : (i 1).val < 128 := idx2_lt1 i
  let t : Fin cfg1.N := ⟨(i 0).val / 256, lt_of_lt_of_eq (by omega : (i 0).val / 256 < 49) N_1.symm⟩
  obtain ⟨-, -, -, -, -, -, -, -, -, -, -, e0, e1⟩ := idx_facts t
  have e0' : win1_4.index t (0 : Fin 2) = (i 0).val / 256 := e0
  refine ⟨t, flush1_4 t, ?_⟩
  rw [mem_blk]
  intro a
  match a with
  | ⟨0, _⟩ =>
    show win1_4.index t (0 : Fin 2) * 256 ≤ (i 0).val ∧ (i 0).val < win1_4.index t (0 : Fin 2) * 256 + 256
    rw [e0']; omega
  | ⟨1, _⟩ =>
    show win1_4.index t (1 : Fin 2) * 128 ≤ (i 1).val ∧ (i 1).val < win1_4.index t (1 : Fin 2) * 128 + 128
    rw [e1]; omega

/-- The array after the region is the closed form. -/
private theorem final_eq (c : Dev nD) : (dat1 (F := Ideal) V c).arrAt 4 cfg1.N = closed V c :=
  (dat1 (F := Ideal) V c).arrAt_eq_of_cover 4 (closed V c) (fun t _ => flushed_eq V c t) cover

/-- The output array after the region. -/
theorem edge_final (c : Dev nD) (g : Fin 12544) (p : Fin 128) :
    ((dat1 (F := Ideal) V c).arrAt 4 cfg1.N : FVec Ideal S12544x128 .f32) (ix2 g p)
      = (∑ h : Fin 128, leaky (sums V c (ix3 g p h) + bias1 V c (ix3 (0 : Fin 1) (0 : Fin 1) h)) * w2 V c (ix3 (0 : Fin 1) (0 : Fin 1) h))
        + bias2 V c (ix2 (0 : Fin 1) (0 : Fin 1)) := by
  exact congrFun (final_eq V c) (ix2 g p)

end Cert.KernelIdeal.EdgeBody

end
-- ==== Proof.KernelScore.lean ====
/-
  The kernel's program computes the edge score.

  Read backwards from the result: entry `e` of the result is entry `(e / 128, e % 128)` of the second region's output,
  which is `(∑ h, leaky (sums[e, h] + b1[h]) · W2[0, h]) + b2[0]`; `sums[e, h]` is the first region's left output at
  the row the edge's first endpoint names plus its right output at the row the second endpoint names — under the
  precondition both integers are valid indices of the table, so the rows read are the table's own and nothing is
  replaced by the fill word —; and the first region's outputs are the node embeddings times the two halves of the first
  layer's weights, `left[n, h] = ∑ k, z[n, k] · W1[h, k]`, `right[n, h] = ∑ k, z[n, k] · W1[h, 128 + k]`. Taking the
  products once per node and reading them per edge is taking them per edge: a sum read at a row is the sum of the row.
-/
import proofs.«427170_j10007273800198_3_alg».proof.Proof.HostChain
import proofs.«427170_j10007273800198_3_alg».proof.Proof.NodeProj
import proofs.«427170_j10007273800198_3_alg».proof.Proof.EdgeBody
import proofs.«427170_j10007273800198_3_alg».proof.Proof.Spec
import Idealize.ShloMosaic.Lib.Pipeline.Value
import Idealize.ShloMosaic.Lib.ValueIdx

set_option maxRecDepth 16384

noncomputable section

namespace Cert.KernelIdeal.KernelScore

open Cert.KernelIdeal Cert.KernelIdeal.Gen Cert.KernelIdeal.TakeRows Cert.KernelIdeal.HostChain Cert.KernelIdeal.NodeProj Cert.KernelIdeal.EdgeBody
open Idealize.ShloMosaic Idealize.ShloMosaic.TcCoe Idealize.ShloMosaic.ValueIdx Idealize.SL.Sem
open Cert.EdgeScore (row leaky colL colR score hidden)

/-! ## The layout operations at an index -/

/-- Entry `(k, o)` of the transposed left half of the weights is entry `(o, k)` of the weights. -/
theorem halfT_left_apply (w : FVec Ideal S128x256 .f32) (k o : Fin 128) :
    halfT ![0, 0] Facts₀.slices_S128x256_S128x128_0_0 w (ix2 k o) = w (ix2 o (colL k)) := by
  unfold halfT
  refine (truncf_apply (ψ := .bf16) _ Facts₀.bitsLt_bf16_f32 (ix2 k o)).trans ?_
  refine (transpose_apply [1, 0] _ Facts₀.transposes_S128x128_S128x128_1_0 (ix2 k o) (ix2 o k) (fun b => ?_)).trans ?_
  · match b with
    | ⟨0, _⟩ => rfl
    | ⟨1, _⟩ => rfl
  · exact extractStridedSlice_apply ![0, 0] w Facts₀.slices_S128x256_S128x128_0_0 (ix2 o k) (ix2 o (colL k)) (fun a => by
      match a with
      | ⟨0, _⟩ => show o.val = 0 + o.val; omega
      | ⟨1, _⟩ => show k.val = 0 + k.val; omega)

/-- Entry `(k, o)` of the transposed right half is entry `(o, 128 + k)`. -/
theorem halfT_right_apply (w : FVec Ideal S128x256 .f32) (k o : Fin 128) :
    halfT ![0, 128] Facts₀.slices_S128x256_S128x128_0_128 w (ix2 k o) = w (ix2 o (colR k)) := by
  unfold halfT
  refine (truncf_apply (ψ := .bf16) _ Facts₀.bitsLt_bf16_f32 (ix2 k o)).trans ?_
  refine (transpose_apply [1, 0] _ Facts₀.transposes_S128x128_S128x128_1_0 (ix2 k o) (ix2 o k) (fun b => ?_)).trans ?_
  · match b with
    | ⟨0, _⟩ => rfl
    | ⟨1, _⟩ => rfl
  · exact extractStridedSlice_apply ![0, 128] w Facts₀.slices_S128x256_S128x128_0_128 (ix2 o k) (ix2 o (colR k)) (fun a => by
      match a with
      | ⟨0, _⟩ => show o.val = 0 + o.val; omega
      | ⟨1, _⟩ => show 128 + k.val = 128 + k.val; rfl)

/-- The first endpoint of edge `e`. -/
theorem ends0_apply (p : IVec S2x1600000 32) (e : Fin 1600000) : ends0 p (ix1 e) = p (ix2 (0 : Fin 2) e) := by
  unfold ends0
  refine (shapeCast_apply _ Facts₀.shapeCasts_S1x1600000_S1600000 (ix1 e) (ix2 (0 : Fin 1) e) ?_).trans ?_
  · rw [Shape.rowMajor_val_two, Shape.rowMajor_val_one]
    show 0 * 1600000 + e.val = e.val
    omega
  · exact extractStridedSlice_apply ![0, 0] p Facts₀.slices_S2x1600000_S1x1600000_0_0 (ix2 (0 : Fin 1) e) (ix2 (0 : Fin 2) e) (fun a => by
      match a with
      | ⟨0, _⟩ => rfl
      | ⟨1, _⟩ => show e.val = 0 + e.val; omega)

/-- The second endpoint of edge `e`. -/
theorem ends1_apply (p : IVec S2x1600000 32) (e : Fin 1600000) : ends1 p (ix1 e) = p (ix2 (1 : Fin 2) e) := by
  unfold ends1
  refine (shapeCast_apply _ Facts₀.shapeCasts_S1x1600000_S1600000 (ix1 e) (ix2 (0 : Fin 1) e) ?_).trans ?_
  · rw [Shape.rowMajor_val_two, Shape.rowMajor_val_one]
    show 0 * 1600000 + e.val = e.val
    omega
  · exact extractStridedSlice_apply ![1, 0] p Facts₀.slices_S2x1600000_S1x1600000_1_0 (ix2 (0 : Fin 1) e) (ix2 (1 : Fin 2) e) (fun a => by
      match a with
      | ⟨0, _⟩ => rfl
      | ⟨1, _⟩ => show e.val = 0 + e.val; omega)

/-- Regrouping the edges 128 to a group: entry `(g, p, h)` is entry `(128 g + p, h)`. -/
theorem regroup_apply (x : FVec Ideal S1605632x128 .f32) (g : Fin 12544) (p h : Fin 128) (e' : Fin 1605632) (he : e'.val = g.val * 128 + p.val) :
    shapeCast S12544x128x128 x Facts₀.shapeCasts_S1605632x128_S12544x128x128 (ix3 g p h) = x (ix2 e' h) := by
  refine shapeCast_apply x Facts₀.shapeCasts_S1605632x128_S12544x128x128 (ix3 g p h) (ix2 e' h) ?_
  rw [Shape.rowMajor_val_two, Shape.rowMajor_val_three]
  show e'.val * 128 + h.val = (g.val * 128 + p.val) * 128 + h.val
  rw [he]

/-- Flattening the groups and keeping the first 1600000 entries: entry `e` is entry `(e / 128, e % 128)`. -/
theorem flat_apply (y : FVec Ideal S12544x128 .f32) (e : Fin 1600000) (g : Fin 12544) (p : Fin 128) (he : e.val = g.val * 128 + p.val) :
    extractStridedSlice S1600000 ![0] (shapeCast S1605632 y Facts₀.shapeCasts_S12544x128_S1605632) Facts₀.slices_S1605632_S1600000_0 (ix1 e)
      = y (ix2 g p) := by
  refine (extractStridedSlice_apply ![0] _ Facts₀.slices_S1605632_S1600000_0 (ix1 e) (ix1 (⟨e.val, by omega⟩ : Fin 1605632)) (fun a => by
    match a with
    | ⟨0, _⟩ => show e.val = 0 + e.val; omega)).trans ?_
  refine shapeCast_apply y Facts₀.shapeCasts_S12544x128_S1605632 _ (ix2 g p) ?_
  rw [Shape.rowMajor_val_two, Shape.rowMajor_val_one]
  show g.val * 128 + p.val = e.val
  omega

theorem bias1_apply (b : FVec Ideal S128 .f32) (h : Fin 128) :
    shapeCast S1x1x128 b Facts₀.shapeCasts_S128_S1x1x128 (ix3 (0 : Fin 1) (0 : Fin 1) h) = b (ix1 h) := by
  refine shapeCast_apply b Facts₀.shapeCasts_S128_S1x1x128 _ (ix1 h) ?_
  rw [Shape.rowMajor_val_one, Shape.rowMajor_val_three]
  show h.val = (0 * 1 + 0) * 128 + h.val
  omega

theorem w2_apply (w : FVec Ideal S1x128 .f32) (h : Fin 128) :
    shapeCast S1x1x128 w Facts₀.shapeCasts_S1x128_S1x1x128 (ix3 (0 : Fin 1) (0 : Fin 1) h) = w (ix2 (0 : Fin 1) h) := by
  refine shapeCast_apply w Facts₀.shapeCasts_S1x128_S1x1x128 _ (ix2 (0 : Fin 1) h) ?_
  rw [Shape.rowMajor_val_two, Shape.rowMajor_val_three]
  show 0 * 128 + h.val = (0 * 1 + 0) * 128 + h.val
  omega

theorem bias2_apply (b : FVec Ideal S1 .f32) :
    shapeCast S1x1 b Facts₀.shapeCasts_S1_S1x1 (ix2 (0 : Fin 1) (0 : Fin 1)) = b (ix1 (0 : Fin 1)) := by
  refine shapeCast_apply b Facts₀.shapeCasts_S1_S1x1 _ (ix1 (0 : Fin 1)) ?_
  rw [Shape.rowMajor_val_one, Shape.rowMajor_val_two]
  rfl

/-! ## The program's arguments, and its value -/

variable (m : (ℓ : Loc nD τ sig) → Buf (Elt Ideal) ℓ) (ρ : Dev nD → PrngReg) (c : Dev nD)

/-- The node embeddings. -/
abbrev zA : FVec Ideal S100000x128 .f32 := m ((c : Thread nD τ).loc main_arg0)
/-- The endpoint integers. -/
abbrev pA : IVec S2x1600000 32 := m ((c : Thread nD τ).loc main_arg1)
/-- The first layer's weights and bias, the second layer's. -/
abbrev w1A : FVec Ideal S128x256 .f32 := m ((c : Thread nD τ).loc main_arg2)
abbrev b1A : FVec Ideal S128 .f32 := m ((c : Thread nD τ).loc main_arg3)
abbrev w2A : FVec Ideal S1x128 .f32 := m ((c : Thread nD τ).loc main_arg4)
abbrev b2A : FVec Ideal S1 .f32 := m ((c : Thread nD τ).loc main_arg5)

/-- The first region's left output: the embeddings times the left half of the first layer's weights. -/
theorem left_value (n : Fin 100000) (h : Fin 128) :
    ((dat0 (F := Ideal) (V1 m ρ) c).arrAt 3 cfg0.N : FVec Ideal S100000x128 .f32) (ix2 n h)
      = ∑ k : Fin 128, zA m c (ix2 n k) * w1A m c (ix2 h (colL k)) := by
  have key : (∑ k : Fin 128, table (V1 m ρ) c (ix2 n k) * wLeft (V1 m ρ) c (ix2 k h))
      = ∑ k : Fin 128, zA m c (ix2 n k) * w1A m c (ix2 h (colL k)) :=
    Finset.sum_congr rfl fun k _ =>
      congrArg₂ (fun a b : EReal => a * b) (congrFun (entry0_table m ρ c) (ix2 n k))
        ((congrFun (entry0_left m ρ c) (ix2 k h)).trans (halfT_left_apply (w1A m c) k h))
  exact (left_final (V1 m ρ) c n h).trans key

/-- The first region's right output: the embeddings times the right half. -/
theorem right_value (n : Fin 100000) (h : Fin 128) :
    ((dat0 (F := Ideal) (V1 m ρ) c).arrAt 4 cfg0.N : FVec Ideal S100000x128 .f32) (ix2 n h)
      = ∑ k : Fin 128, zA m c (ix2 n k) * w1A m c (ix2 h (colR k)) := by
  have key : (∑ k : Fin 128, table (V1 m ρ) c (ix2 n k) * wRight (V1 m ρ) c (ix2 k h))
      = ∑ k : Fin 128, zA m c (ix2 n k) * w1A m c (ix2 h (colR k)) :=
    Finset.sum_congr rfl fun k _ =>
      congrArg₂ (fun a b : EReal => a * b) (congrFun (entry0_table m ρ c) (ix2 n k))
        ((congrFun (entry0_right m ρ c) (ix2 k h)).trans (halfT_right_apply (w1A m c) k h))
  exact (right_final (V1 m ρ) c n h).trans key

attribute [local irreducible] takeRows padded ends0 ends1 in
/-- Between the regions, for any two per-node tables `L`, `R` and endpoint integers `q` that are valid indices: entry
    `(g, p, h)` of the regrouped sums is `L` at the first endpoint's row plus `R` at the second's. -/
theorem sums_pure (L R : FVec Ideal S100000x128 .f32) (q : IVec S2x1600000 32)
    (hr : ∀ j : S2x1600000.Idx, -100000 ≤ (q j).toInt ∧ (q j).toInt < 100000)
    (e : Fin 1600000) (g : Fin 12544) (p h : Fin 128) (he : e.val = g.val * 128 + p.val) :
    shapeCast S12544x128x128 (addf (F := Ideal) (φ := .f32) (takeRows (F := Ideal) L (padded (ends0 q))) (takeRows (F := Ideal) R (padded (ends1 q))))
        Facts₀.shapeCasts_S1605632x128_S12544x128x128 (ix3 g p h)
      = L (ix2 (row (q (ix2 (0 : Fin 2) e))) h) + R (ix2 (row (q (ix2 (1 : Fin 2) e))) h) := by
  have hlt : e.val < 1605632 := by have := e.isLt; omega
  have e0 : padded (ends0 q) (ix1 (⟨e.val, hlt⟩ : Fin 1605632)) = q (ix2 (0 : Fin 2) e) :=
    (padded_apply (ends0 q) e).trans (ends0_apply q e)
  have e1 : padded (ends1 q) (ix1 (⟨e.val, hlt⟩ : Fin 1605632)) = q (ix2 (1 : Fin 2) e) :=
    (padded_apply (ends1 q) e).trans (ends1_apply q e)
  refine (regroup_apply (addf (F := Ideal) (φ := .f32) (takeRows (F := Ideal) L (padded (ends0 q))) (takeRows (F := Ideal) R (padded (ends1 q))))
    g p h (⟨e.val, hlt⟩ : Fin 1605632) he).trans ?_
  refine (addf_apply (takeRows (F := Ideal) L (padded (ends0 q))) (takeRows (F := Ideal) R (padded (ends1 q)))
    (ix2 (⟨e.val, hlt⟩ : Fin 1605632) h)).trans ?_
  have hL := takeRows_apply L (padded (ends0 q)) (⟨e.val, hlt⟩ : Fin 1605632) h (by rw [e0]; exact (hr _).1) (by rw [e0]; exact (hr _).2)
  have hR := takeRows_apply R (padded (ends1 q)) (⟨e.val, hlt⟩ : Fin 1605632) h (by rw [e1]; exact (hr _).1) (by rw [e1]; exact (hr _).2)
  rw [hL, hR, e0, e1]

/-- What the second region finds for edge `e` and hidden unit `h`, the endpoint integers being valid indices: the two
    endpoints' projections, added. -/
theorem sums_value (hr : ∀ j : S2x1600000.Idx, -100000 ≤ (pA m c j).toInt ∧ (pA m c j).toInt < 100000)
    (e : Fin 1600000) (g : Fin 12544) (p h : Fin 128) (he : e.val = g.val * 128 + p.val) :
    sums (V9 m ρ) c (ix3 g p h)
      = (∑ k : Fin 128, zA m c (ix2 (row (pA m c (ix2 (0 : Fin 2) e))) k) * w1A m c (ix2 h (colL k)))
        + (∑ k : Fin 128, zA m c (ix2 (row (pA m c (ix2 (1 : Fin 2) e))) k) * w1A m c (ix2 h (colR k))) := by
  refine (congrFun (entry1_sums m ρ c) (ix3 g p h)).trans ?_
  refine (sums_pure ((dat0 (F := Ideal) (V1 m ρ) c).arrAt 3 cfg0.N) ((dat0 (F := Ideal) (V1 m ρ) c).arrAt 4 cfg0.N) (pA m c) hr e g p h he).trans ?_
  exact congrArg₂ (fun a b : EReal => a + b) (left_value m ρ c (row (pA m c (ix2 (0 : Fin 2) e))) h) (right_value m ρ c (row (pA m c (ix2 (1 : Fin 2) e))) h)

/-- THE KERNEL'S VALUE: where the endpoint integers are valid indices of the table, the result array is the score. -/
theorem kernel_score (hr : ∀ j : S2x1600000.Idx, -100000 ≤ (pA m c j).toInt ∧ (pA m c j).toInt < 100000) :
    W11 m ρ c (Proc.devRef .tc main_v22) = score (zA m c) (pA m c) (w1A m c) (b1A m c) (w2A m c) (b2A m c) := by
  refine (result_eq m ρ c).trans ?_
  funext i
  obtain ⟨e, rfl⟩ : ∃ e : Fin 1600000, i = ix1 e := ⟨i 0, eq_ix1 i⟩
  have hg : e.val / 128 < 12544 := by have := e.isLt; omega
  have hp : e.val % 128 < 128 := Nat.mod_lt _ (by decide)
  have he : e.val = (⟨e.val / 128, hg⟩ : Fin 12544).val * 128 + (⟨e.val % 128, hp⟩ : Fin 128).val := by
    show e.val = e.val / 128 * 128 + e.val % 128
    omega
  refine (flat_apply ((dat1 (F := Ideal) (V9 m ρ) c).arrAt 4 cfg1.N) e ⟨e.val / 128, hg⟩ ⟨e.val % 128, hp⟩ he).trans ?_
  refine (edge_final (V9 m ρ) c ⟨e.val / 128, hg⟩ ⟨e.val % 128, hp⟩).trans ?_
  have hb1 : ∀ h : Fin 128, bias1 (V9 m ρ) c (ix3 (0 : Fin 1) (0 : Fin 1) h) = b1A m c (ix1 h) := fun h =>
    (congrFun (entry1_bias1 m ρ c) (ix3 (0 : Fin 1) (0 : Fin 1) h)).trans (bias1_apply (b1A m c) h)
  have hw2 : ∀ h : Fin 128, w2 (V9 m ρ) c (ix3 (0 : Fin 1) (0 : Fin 1) h) = w2A m c (ix2 (0 : Fin 1) h) := fun h =>
    (congrFun (entry1_w2 m ρ c) (ix3 (0 : Fin 1) (0 : Fin 1) h)).trans (w2_apply (w2A m c) h)
  have hb2 : bias2 (V9 m ρ) c (ix2 (0 : Fin 1) (0 : Fin 1)) = b2A m c (ix1 (0 : Fin 1)) :=
    (congrFun (entry1_bias2 m ρ c) (ix2 (0 : Fin 1) (0 : Fin 1))).trans (bias2_apply (b2A m c))
  have hterm : ∀ h : Fin 128,
      (leaky (sums (V9 m ρ) c (ix3 (⟨e.val / 128, hg⟩ : Fin 12544) (⟨e.val % 128, hp⟩ : Fin 128) h) + bias1 (V9 m ρ) c (ix3 (0 : Fin 1) (0 : Fin 1) h))
          * w2 (V9 m ρ) c (ix3 (0 : Fin 1) (0 : Fin 1) h) : EReal)
        = leaky (hidden (zA m c) (pA m c) (w1A m c) (b1A m c) e h) * w2A m c (ix2 (0 : Fin 1) h) := fun h => by
    rw [sums_value m ρ c hr e ⟨e.val / 128, hg⟩ ⟨e.val % 128, hp⟩ h he, hb1 h, hw2 h]
    rfl
  exact congrArg₂ (fun a b : EReal => a + b) (Finset.sum_congr rfl fun h _ => hterm h) hb2

end Cert.KernelIdeal.KernelScore

end
-- ==== Proof.IndexRange.lean ====
/-
  What the precondition says of the edges' endpoint integers: each lies in `[-100000, 100000)`, a valid index of the
  100000-row table with negative ones counting from the end.
-/
import proofs.«427170_j10007273800198_3_alg».proof.Defs
import Idealize.ShloMosaic.Lib.ReduceAll
import Idealize.ShloMosaic.Lib.StableHlo.Predicate
import Idealize.ShloMosaic.Lib.ValueIdx

noncomputable section

namespace Cert.KernelIdeal.IndexRange

open Cert.KernelIdeal Idealize.ShloMosaic Idealize.ShloMosaic.ValueIdx Idealize.SL.Sem

variable [Cert.Pre_finite_inputs.Facts]

/-- The rank-0 shape has exactly one index. -/
private instance subsingleton_scalar_idx : Subsingleton Cert.Pre_finite_inputs.S_.Idx :=
  ⟨fun _ _ => funext fun d => d.elim0⟩

/-- A word at least the word of -100000 and below the word of 100000, both read signed, lies in the range. -/
private theorem range_of_cmp (v lo hi : BitVec 32) (hlo : lo = 4294867296#32) (hhi : hi = 100000#32)
    (h : IntOp.andi (IntOp.cmpi .sge v lo) (IntOp.cmpi .slt v hi) = 1#1) :
    -100000 ≤ v.toInt ∧ v.toInt < 100000 := by
  subst hlo hhi
  obtain ⟨hge, hlt⟩ := IntOp.andi_eq_one.1 h
  have h1 := IntOp.cmpi_sge.1 hge
  have h2 := IntOp.cmpi_slt.1 hlt
  have e1 : (4294867296#32 : BitVec 32).toInt = -100000 := by decide
  have e2 : (100000#32 : BitVec 32).toInt = 100000 := by decide
  rw [e1] at h1
  rw [e2] at h2
  exact ⟨h1, h2⟩

/-- Under the precondition every endpoint integer is a valid index of the table. -/
theorem index_range (m : (ℓ : Loc nD τ sig) → Buf (Elt Ideal) ℓ) (hpre : Cert.Pre_KernelIdeal m) (c : Dev nD)
    (j : S2x1600000.Idx) :
    -100000 ≤ (m ((c.tc : Thread nD τ).loc main_arg1) j).toInt ∧ (m ((c.tc : Thread nD τ).loc main_arg1) j).toInt < 100000 := by
  have h := congrFun (hpre c) ValueIdx.ix0
  dsimp only [Cert.Pre_finite_inputs.fn, Cert.Pre_finite_inputs.fn_part1] at h
  -- the outermost conjunct is the whole-array conjunction of the two comparisons
  have hall := (IntOp.andi_eq_one.1 h).2
  -- every element of that conjunction is one
  have hj := Host.reduce_andi_all _ _ _ _ _ hall j
  exact range_of_cmp _ _ _ (StableHlo.Predicate.bcast_scalar _ Cert.Pre_finite_inputs.Facts.h_S_ _ j)
    (StableHlo.Predicate.bcast_scalar _ Cert.Pre_finite_inputs.Facts.h_S_ _ j) hj

end Cert.KernelIdeal.IndexRange

end
-- ==== Proof.RefScore.lean ====
/-
  The reference program's result is the edge score: its host operations, read one at a time at an index, are the
  score's formula — the two row gathers read the table at `EdgeScore.row` of the endpoint integers, the three
  contractions are the three sums.
-/
import proofs.«427170_j10007273800198_3_alg».proof.Proof.Gen.ReferenceIdeal.Read
import proofs.«427170_j10007273800198_3_alg».proof.Proof.Spec
import proofs.«427170_j10007273800198_3_alg».proof.Proof.LibGatherRows

noncomputable section

namespace Cert.ReferenceIdeal.RefScore

open Cert.ReferenceIdeal Cert.ReferenceIdeal.Gen Cert.ReferenceIdeal.Read Idealize.ShloMosaic Idealize.ShloMosaic.TcCoe Idealize.ShloMosaic.ValueIdx Idealize.SL.Sem

/-- The first gather's start index at edge `e` is the first endpoint's integer, wrapped. -/
private theorem start_left (x1 : (⟨S2x1600000, .i32⟩ : BufTy).Contents (Elt Ideal)) (e : Fin 1600000) :
    val_main_v11 (F := Ideal) x1 (ix2 e (0 : Fin 1)) = Cert.EdgeScore.wrap (x1 (ix2 (0 : Fin 2) e)) := by
  have hi : idx_main_v0 (idx_main_v1 (idx_main_v11 (ix2 e (0 : Fin 1)))) = ix2 (0 : Fin 2) e :=
    funext fun a => Fin.ext (by
      match a with
      | ⟨0, _⟩ => rfl
      | ⟨1, _⟩ => exact Nat.mod_eq_of_lt e.isLt)
  rw [val_main_v11_apply, val_main_v10_apply, val_main_v7_apply, val_main_v9_apply, val_main_v1_apply,
    val_main_v0_apply, val_main_v6_apply, val_main_v8_apply, val_main_c_apply, val_main_c_0_apply, hi]
  rfl

/-- The second gather's start index at edge `e` is the second endpoint's integer, wrapped. -/
private theorem start_right (x1 : (⟨S2x1600000, .i32⟩ : BufTy).Contents (Elt Ideal)) (e : Fin 1600000) :
    val_main_v19 (F := Ideal) x1 (ix2 e (0 : Fin 1)) = Cert.EdgeScore.wrap (x1 (ix2 (1 : Fin 2) e)) := by
  have hi : idx_main_v2 (idx_main_v3 (idx_main_v19 (ix2 e (0 : Fin 1)))) = ix2 (1 : Fin 2) e :=
    funext fun a => Fin.ext (by
      match a with
      | ⟨0, _⟩ => rfl
      | ⟨1, _⟩ => exact Nat.mod_eq_of_lt e.isLt)
  rw [val_main_v19_apply, val_main_v18_apply, val_main_v15_apply, val_main_v17_apply, val_main_v3_apply,
    val_main_v2_apply, val_main_v14_apply, val_main_v16_apply, val_main_c_1_apply, val_main_c_2_apply, hi]
  rfl

/-- A row gather of the table read at `(e, k)`: the table at the clamped start row and column `k`. -/
private theorem gather_read (x0 : (⟨S100000x128, .f32⟩ : BufTy).Contents (Elt Ideal))
    (idx : (⟨S1600000x1, .i32⟩ : BufTy).Contents (Elt Ideal)) (e : Fin 1600000) (k : Fin 128) :
    Host.gather gather_S100000x128_S1600000x1_S1600000x128_1_0_n_n_0_1_1128 x0 idx (ix2 e k)
      = x0 (ix2 (⟨min (idx (ix2 e (0 : Fin 1))).toInt.toNat (100000 - 1), by omega⟩ : Fin 100000) k) :=
  Cert.EdgeScore.GatherRows.gather_rows_apply (N := 100000) (C := 128) (R := 1600000) (by decide)
    gather_S100000x128_S1600000x1_S1600000x128_1_0_n_n_0_1_1128_wf x0 idx e k

/-- The first gathered embedding. -/
private theorem left_read (x0 : (⟨S100000x128, .f32⟩ : BufTy).Contents (Elt Ideal)) (x1 : (⟨S2x1600000, .i32⟩ : BufTy).Contents (Elt Ideal)) (e : Fin 1600000) (k : Fin 128) :
    val_main_v12 (F := Ideal) x0 x1 (ix2 e k) = x0 (ix2 (Cert.EdgeScore.row (x1 (ix2 (0 : Fin 2) e))) k) := by
  unfold val_main_v12
  rw [gather_read]
  exact congrArg (fun r => x0 (ix2 r k)) (Fin.ext (by
    show min _ _ = min _ _
    rw [start_left]))

/-- The second gathered embedding. -/
private theorem right_read (x0 : (⟨S100000x128, .f32⟩ : BufTy).Contents (Elt Ideal)) (x1 : (⟨S2x1600000, .i32⟩ : BufTy).Contents (Elt Ideal)) (e : Fin 1600000) (k : Fin 128) :
    val_main_v20 (F := Ideal) x0 x1 (ix2 e k) = x0 (ix2 (Cert.EdgeScore.row (x1 (ix2 (1 : Fin 2) e))) k) := by
  unfold val_main_v20
  rw [gather_read]
  exact congrArg (fun r => x0 (ix2 r k)) (Fin.ext (by
    show min _ _ = min _ _
    rw [start_right]))

/-- The first layer's output before the rectifier. -/
private theorem hidden_read (x0 : (⟨S100000x128, .f32⟩ : BufTy).Contents (Elt Ideal)) (x1 : (⟨S2x1600000, .i32⟩ : BufTy).Contents (Elt Ideal)) (x2 : (⟨S128x256, .f32⟩ : BufTy).Contents (Elt Ideal)) (x3 : (⟨S128, .f32⟩ : BufTy).Contents (Elt Ideal)) (e : Fin 1600000) (h : Fin 128) :
    val_main_v25 (F := Ideal) x0 x1 x2 x3 (ix2 e h) = Cert.EdgeScore.hidden x0 x1 x2 x3 e h := by
  rw [val_main_v25_apply, val_main_v22_apply, val_main_v13_apply, val_main_v21_apply, val_main_v24_apply,
    val_main_v23_apply]
  unfold Cert.EdgeScore.hidden
  have hl : ∀ k : Fin 128, lidx_main_v13 (ix2 e h) k = ix2 e k := fun k => funext fun a => Fin.ext (by
    match a with
    | ⟨0, _⟩ => rfl
    | ⟨1, _⟩ => rfl)
  have hr : ∀ k : Fin 128, ridx_main_v13 (ix2 e h) k = ix2 h k := fun k => funext fun a => Fin.ext (by
    match a with
    | ⟨0, _⟩ => rfl
    | ⟨1, _⟩ => rfl)
  have hl' : ∀ k : Fin 128, lidx_main_v21 (ix2 e h) k = ix2 e k := fun k => funext fun a => Fin.ext (by
    match a with
    | ⟨0, _⟩ => rfl
    | ⟨1, _⟩ => rfl)
  have hr' : ∀ k : Fin 128, ridx_main_v21 (ix2 e h) k = ix2 h k := fun k => funext fun a => Fin.ext (by
    match a with
    | ⟨0, _⟩ => rfl
    | ⟨1, _⟩ => rfl)
  have h4 : ∀ k : Fin 128, idx_main_v4 (ix2 h k) = ix2 h (Cert.EdgeScore.colL k) := fun k => funext fun a => Fin.ext (by
    match a with
    | ⟨0, _⟩ => rfl
    | ⟨1, _⟩ => rfl)
  have h5 : ∀ k : Fin 128, idx_main_v5 (ix2 h k) = ix2 h (Cert.EdgeScore.colR k) := fun k => funext fun a => Fin.ext (by
    match a with
    | ⟨0, _⟩ => rfl
    | ⟨1, _⟩ => rfl)
  have h3 : idx_main_v23 (idx_main_v24 (ix2 e h)) = ix1 h := funext fun a => Fin.ext (by
    match a with
    | ⟨0, _⟩ => rfl)
  refine congrArg₂ (· + ·) (congrArg₂ (· + ·) (Finset.sum_congr rfl fun k _ => ?_) (Finset.sum_congr rfl fun k _ => ?_)) ?_
  · rw [hl, hr, left_read, val_main_v4_apply, h4]
  · rw [hl', hr', right_read, val_main_v5_apply, h5]
  · rw [h3]

/-- The rectified first layer. -/
private theorem leaky_read (x0 : (⟨S100000x128, .f32⟩ : BufTy).Contents (Elt Ideal)) (x1 : (⟨S2x1600000, .i32⟩ : BufTy).Contents (Elt Ideal)) (x2 : (⟨S128x256, .f32⟩ : BufTy).Contents (Elt Ideal)) (x3 : (⟨S128, .f32⟩ : BufTy).Contents (Elt Ideal)) (e : Fin 1600000) (h : Fin 128) :
    val_main_v30 (F := Ideal) x0 x1 x2 x3 (ix2 e h) = Cert.EdgeScore.leaky (Cert.EdgeScore.hidden x0 x1 x2 x3 e h) := by
  rw [val_main_v30_apply, val_main_v27_apply, val_main_v29_apply, val_main_v26_apply, val_main_v28_apply,
    val_main_cst_apply, val_main_cst_3_apply, hidden_read]
  rfl

/-- The reference's last stage, as a function of the six argument arrays, is the score. -/
theorem ref_score (x0 : (⟨S100000x128, .f32⟩ : BufTy).Contents (Elt Ideal)) (x1 : (⟨S2x1600000, .i32⟩ : BufTy).Contents (Elt Ideal))
    (x2 : (⟨S128x256, .f32⟩ : BufTy).Contents (Elt Ideal)) (x3 : (⟨S128, .f32⟩ : BufTy).Contents (Elt Ideal))
    (x4 : (⟨S1x128, .f32⟩ : BufTy).Contents (Elt Ideal)) (x5 : (⟨S1, .f32⟩ : BufTy).Contents (Elt Ideal)) :
    val_main_v35 (F := Ideal) x0 x1 x2 x3 x4 x5 = Cert.EdgeScore.score x0 x1 x2 x3 x4 x5 := by
  funext i
  obtain ⟨e, rfl⟩ : ∃ e : Fin 1600000, i = ix1 e := ⟨i 0, eq_ix1 i⟩
  rw [val_main_v35_apply, val_main_v34_apply, val_main_v31_apply, val_main_v33_apply, val_main_v32_apply]
  unfold Cert.EdgeScore.score
  have hl : ∀ k : Fin 128, lidx_main_v31 (idx_main_v35 (ix1 e)) k = ix2 e k := fun k => funext fun a => Fin.ext (by
    match a with
    | ⟨0, _⟩ => exact Nat.div_one _
    | ⟨1, _⟩ => rfl)
  have hr : ∀ k : Fin 128, ridx_main_v31 (idx_main_v35 (ix1 e)) k = ix2 (0 : Fin 1) k := fun k => funext fun a => Fin.ext (by
    match a with
    | ⟨0, _⟩ => rfl
    | ⟨1, _⟩ => rfl)
  have h5 : idx_main_v32 (idx_main_v33 (idx_main_v35 (ix1 e))) = ix1 (0 : Fin 1) := funext fun a => Fin.ext (by
    match a with
    | ⟨0, _⟩ => rfl)
  refine congrArg₂ (· + ·) (Finset.sum_congr rfl fun k _ => ?_) ?_
  · rw [hl, hr, leaky_read]
  · rw [h5]

end Cert.ReferenceIdeal.RefScore

end
-- ==== Proof.lean ====
/-
  The kernel scores the candidate edges of a graph from its node embeddings in two stages — every node's embedding
  through the two halves of the first layer's weights once per node, then per edge the two endpoints' projections read
  by the endpoints' integers, added, biased, rectified, weighted and summed — where the reference gathers the two
  endpoints' embeddings per edge first and multiplies afterwards. Over the extended reals the two are one function of
  the arguments, the edge score of Proof/Spec.lean: a row of a product is the product of the row, and no law beyond
  that is used, so the finiteness of the float inputs is never opened. What is used of the precondition is its last
  conjunct: every endpoint integer is a valid index of the 100000-row table, a negative one counting from the end.
  There both programs read the same rows; outside it the reference clamps its index into the table while the kernel
  replaces the row, and the two differ.

  The kernel's side: its run ends with the result array at the fold of its host operations and two regions
  (Proof/KRun.lean), that fold read back stage by stage (Proof/HostChain.lean, Proof/TakeRows.lean), each region's
  final array entry by entry (Proof/NodeProj.lean, Proof/EdgeBody.lean), and the whole composed (Proof/KernelScore.lean)
  under the index range the precondition gives (Proof/IndexRange.lean). The reference's side: its generated run and
  the read of its stages at an index (Proof/RefScore.lean).
-/
import proofs.«427170_j10007273800198_3_alg».proof.Defs
import proofs.«427170_j10007273800198_3_alg».proof.Proof.Gen.Kernel
import proofs.«427170_j10007273800198_3_alg».proof.Proof.Gen.Kernel.Skeleton
import proofs.«427170_j10007273800198_3_alg».proof.Proof.Gen.Kernel.Launch
import proofs.«427170_j10007273800198_3_alg».proof.Proof.Gen.Kernel.Points
import proofs.«427170_j10007273800198_3_alg».proof.Proof.Gen.Kernel.Frame
import proofs.«427170_j10007273800198_3_alg».proof.Proof.Gen.KernelIdeal
import proofs.«427170_j10007273800198_3_alg».proof.Proof.Gen.KernelIdeal.Skeleton
import proofs.«427170_j10007273800198_3_alg».proof.Proof.Gen.KernelIdeal.Launch
import proofs.«427170_j10007273800198_3_alg».proof.Proof.Gen.KernelIdeal.Points
import proofs.«427170_j10007273800198_3_alg».proof.Proof.Gen.KernelIdeal.Frame
import proofs.«427170_j10007273800198_3_alg».proof.Proof.Gen.ReferenceIdeal
import proofs.«427170_j10007273800198_3_alg».proof.Proof.Gen.Pre_finite_inputs
import proofs.«427170_j10007273800198_3_alg».proof.Proof.Gen.ReferenceIdeal.Run
import proofs.«427170_j10007273800198_3_alg».proof.Proof.Gen.ReferenceIdeal.Read
import proofs.«427170_j10007273800198_3_alg».proof.Proof.KRun
import proofs.«427170_j10007273800198_3_alg».proof.Proof.KernelScore
import proofs.«427170_j10007273800198_3_alg».proof.Proof.IndexRange
import proofs.«427170_j10007273800198_3_alg».proof.Proof.RefScore
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the edge score of the arguments: the kernel's result array by `kernel_score`, under the
    index range the precondition gives, the reference's by `ref_score`; the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W11 m ρ c (Proc.devRef .tc Cert.KernelIdeal.main_v22), Cert.KernelIdeal.ValueRun.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefScore.ref_score,
    (hagree c).1, (hagree c).2.1, (hagree c).2.2.1, (hagree c).2.2.2.1, (hagree c).2.2.2.2.1, (hagree c).2.2.2.2.2]
  exact (Cert.KernelIdeal.KernelScore.kernel_score m ρ c
    (fun j => Cert.KernelIdeal.IndexRange.index_range m hpre c j)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
